-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x751 : Shape := ⟨2, ![8192, 751]⟩
abbrev S8192 : Shape := ⟨1, ![8192]⟩
abbrev S751x2048 : Shape := ⟨2, ![751, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x751 : S_.BroadcastsInDim S8192x751 (![] : Fin 0 → Fin S8192x751.rank)
  reducesTo_S8192x751_S_d0_1 : S8192x751.ReducesTo [0, 1] S_
  bcast_S_S751x2048 : S_.BroadcastsInDim S751x2048 (![] : Fin 0 → Fin S751x2048.rank)
  reducesTo_S751x2048_S_d0_1 : S751x2048.ReducesTo [0, 1] S_
  reducesTo_S_S_d : S_.ReducesTo [] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_arg5 : FVec F S_ .f32) (main_v13 : IVec S_ 1) (main_v16 : IVec S751x2048 1) : IVec S_ 1 :=
  let main_c_5 : IVec S_ 1 := constantI S_ 1 1#1
  let main_v17 : IVec S_ 1 := (fun x v => Host.reduce IntOp.andi x v reducesTo_S751x2048_S_d0_1 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_c_8 : IVec S_ 32 := constantI S_ 32 0#32
  let main_v23 : IVec S8192 32 := broadcastInDim S8192 ![] bcast_S_S8192 main_c_8
  let main_v24 : IVec S8192 1 := cmpi .sge main_arg2 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  let main_c_10 : IVec S_ 32 := constantI S_ 32 751#32
  let main_v27 : IVec S8192 32 := broadcastInDim S8192 ![] bcast_S_S8192 main_c_10
  let main_v28 : IVec S8192 1 := cmpi .slt main_arg2 main_v27
  let main_c_11 : IVec S_ 1 := constantI S_ 1 1#1
  let main_v29 : IVec S_ 1 := (fun x v => Host.reduce IntOp.andi x v reducesTo_S8192_S_d0 h_S_) main_v28 main_c_11
  let main_v30 : IVec S_ 1 := andi main_v26 main_v29
  main_v30

def fn {F : FTy → Type} [FloatOps F] (main_arg0 : FVec F S8192x2048 .f32) (main_arg1 : FVec F S8192x751 .f32) (main_arg2 : IVec S8192 32) (main_arg3 : FVec F S751x2048 .f32) (main_arg4 : FVec F S751x2048 .f32) (main_arg5 : FVec F S_ .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x751 .f32 := Host.absf main_arg1
  let main_cst_0 : FVec F S_ .f32 := constant S_ .f32 0x7F800000#32
  let main_v5 : FVec F S8192x751 .f32 := broadcastInDim S8192x751 ![] bcast_S_S8192x751 main_cst_0
  let main_v6 : IVec S8192x751 1 := cmpf .olt main_v4 main_v5
  let main_c_1 : IVec S_ 1 := constantI S_ 1 1#1
  let main_v7 : IVec S_ 1 := (fun x v => Host.reduce IntOp.andi x v reducesTo_S8192x751_S_d0_1 h_S_) main_v6 main_c_1
  let main_v8 : IVec S_ 1 := andi main_v3 main_v7
  let main_v9 : FVec F S751x2048 .f32 := Host.absf main_arg3
  let main_cst_2 : FVec F S_ .f32 := constant S_ .f32 0x7F800000#32
  let main_v10 : FVec F S751x2048 .f32 := broadcastInDim S751x2048 ![] bcast_S_S751x2048 main_cst_2
  let main_v11 : IVec S751x2048 1 := cmpf .olt main_v9 main_v10
  let main_c_3 : IVec S_ 1 := constantI S_ 1 1#1
  let main_v12 : IVec S_ 1 := (fun x v => Host.reduce IntOp.andi x v reducesTo_S751x2048_S_d0_1 h_S_) main_v11 main_c_3
  let main_v13 : IVec S_ 1 := andi main_v8 main_v12
  let main_v14 : FVec F S751x2048 .f32 := Host.absf main_arg4
  let main_cst_4 : FVec F S_ .f32 := constant S_ .f32 0x7F800000#32
  let main_v15 : FVec F S751x2048 .f32 := broadcastInDim S751x2048 ![] bcast_S_S751x2048 main_cst_4
  let main_v16 : IVec S751x2048 1 := cmpf .olt main_v14 main_v15
  fn_part1 (F := F) main_arg2 main_arg5 main_v13 main_v16
-- ==== Kernel.lean ====
abbrev S8192x2048 : Shape := ⟨2, ![8192, 2048]⟩
abbrev S8192x751 : Shape := ⟨2, ![8192, 751]⟩
abbrev S8192 : Shape := ⟨1, ![8192]⟩
abbrev S751x2048 : Shape := ⟨2, ![751, 2048]⟩
abbrev S_ : Shape := ⟨0, ![]⟩
abbrev S8192x1 : Shape := ⟨2, ![8192, 1]⟩
abbrev S1x1 : Shape := ⟨2, ![1, 1]⟩
abbrev S512x2048 : Shape := ⟨2, ![512, 2048]⟩
abbrev S512x1 : Shape := ⟨2, ![512, 1]⟩
abbrev S512x751 : Shape := ⟨2, ![512, 751]⟩
abbrev S512 : Shape := ⟨1, ![512]⟩

abbrev nBuf : Space → Nat
  | .hbm => 42
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x751, .f32⟩
  | .hbm, ⟨2, _⟩ => ⟨S8192, .i32⟩
  | .hbm, ⟨3, _⟩ => ⟨S751x2048, .f32⟩
  | .hbm, ⟨4, _⟩ => ⟨S751x2048, .f32⟩
  | .hbm, ⟨5, _⟩ => ⟨S_, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x2048, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S751x2048, .bf16⟩
  | .hbm, ⟨31, _⟩ => ⟨S751x2048, .f32⟩
  | .hbm, ⟨32, _⟩ => ⟨S751x2048, .bf16⟩
  | .hbm, ⟨33, _⟩ => ⟨S8192x2048, .bf16⟩
  | .hbm, ⟨34, _⟩ => ⟨S8192x2048, .bf16⟩
  | .hbm, ⟨35, _⟩ => ⟨S8192x1, .i32⟩
  | .hbm, ⟨36, _⟩ => ⟨S1x1, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S751x2048, .bf16⟩
  | .local _ .vmem, ⟨1, _⟩ => ⟨S751x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1, .f32⟩
  | .local _ .vmem, ⟨7, _⟩ => ⟨S512x1, .f32⟩
  | .local _ .vmem, ⟨8, _⟩ => ⟨S512x751, .f32⟩
  | .local _ .vmem, ⟨9, _⟩ => ⟨S512x751, .f32⟩
  | .local _ .vmem, ⟨10, _⟩ => ⟨S512x1, .i32⟩
  | .local _ .vmem, ⟨11, _⟩ => ⟨S512x1, .i32⟩
  | .local _ .vmem, ⟨12, _⟩ => ⟨S1x1, .f32⟩
  | .local _ .vmem, ⟨13, _⟩ => ⟨S512x1, .f32⟩
  | .local _ .vmem, ⟨14, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S751x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S751x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x751 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x2048_S8192_d1 : S8192x2048.ReducesTo [1] S8192
  h_S_ : 0 < S_.numel
  bitsLt_bf16_f32 : FTy.bits .bf16 < FTy.bits .f32
  shapeCasts_S8192_S8192x1 : S8192.ShapeCasts S8192x1
  shapeCasts_S_S1x1 : S_.ShapeCasts S1x1
  inb_S751x2048_S751x2048_0_0 : ∀ a, (![0, 0] : Fin 2 → Nat) a + S751x2048.size a ≤ S751x2048.size a
  h_S751x2048 : 0 < S751x2048.numel
  shapeCasts_S751x2048_S751x2048 : S751x2048.ShapeCasts S751x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x751 : S512x1.Broadcasts S512x751
  inb_S512x751_S512x751_0_0 : ∀ a, (![0, 0] : Fin 2 → Nat) a + S512x751.size a ≤ S512x751.size a
  h_S512x751 : 0 < S512x751.numel
  reduces_S512x751_S512 : S512x751.Reduces [1] S512
  shapeCasts_S512_S512x1 : S512.ShapeCasts S512x1
  iota_S512x751_d1_w32 : S512x751.Iotas .tc 32 [1]
  natLt_1_32 : 1 < 32
  reducesTo_S8192x1_S_d0_1 : S8192x1.ReducesTo [0, 1] S_
  gather_S751x2048_S8192x1_S8192x2048_1_0_n_n_0_1_12048_wf : GatherDims.WF S751x2048 S8192x1 S8192x2048 [1] [0] [] [0] [] 1 ![1, 2048]
  dot_S512x2048_S751x2048_S512x751_1_1_0_0_n_n_wf : DotDims.WF S512x2048 S751x2048 S512x751 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S751x2048.size a ≤ S751x2048.size a
  hwx0_0 : ∀ i : grid0.Coords, EltTy.bits .bf16 = 32 ∨ (Rect.block (s := S751x2048) S751x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S751x2048.size a ≤ S751x2048.size a
  hwx0_1 : ∀ i : grid0.Coords, EltTy.bits .bf16 = 32 ∨ (Rect.block (s := S751x2048) S751x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .bf16 = 32 ∨ (Rect.block (s := S8192x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x751.size a ≤ S8192x751.size a
  hwx0_5 : ∀ i : grid0.Coords, EltTy.bits .f32 = 32 ∨ (Rect.block (s := S8192x751) S512x751.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .i32 = 32 ∨ (Rect.block (s := S8192x1) S512x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S8192x1.size a
  hwx0_8 : ∀ i : grid0.Coords, EltTy.bits .f32 = 32 ∨ (Rect.block (s := S8192x1) S512x1.size (cc0_transform_8 i) (hinb0_8 i)).WholeWords (EltTy.packing .f32)

variable [Facts₀]

def gather_S751x2048_S8192x1_S8192x2048_1_0_n_n_0_1_12048 : GatherDims S751x2048 S8192x1 S8192x2048 where
  offsetDims := [1]
  collapsedSliceDims := [0]
  operandBatchingDims := []
  startIndicesBatchingDims := []
  startIndexMap := [0]
  indexVectorDim := 1
  sliceSizes := ![1, 2048]
  wf := gather_S751x2048_S8192x1_S8192x2048_1_0_n_n_0_1_12048_wf
def dot_S512x2048_S751x2048_S512x751_1_1_0_0_n_n : DotDims S512x2048 S751x2048 S512x751 where
  lhsContracting := [1]
  rhsContracting := [1]
  lhsNonContracting := [0]
  rhsNonContracting := [0]
  lhsBatch := []
  rhsBatch := []
  wf := dot_S512x2048_S751x2048_S512x751_1_1_0_0_n_n_wf

abbrev win0_0 : Pipeline.Window sig grid0 :=
  Pipeline.Window.ofSpec (Memref.whole main_v19) S751x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S751x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x751.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x751 : Shape := ⟨2, ![8192, 751]⟩
abbrev S8192 : Shape := ⟨1, ![8192]⟩
abbrev S751x2048 : Shape := ⟨2, ![751, 2048]⟩
abbrev S_ : Shape := ⟨0, ![]⟩
abbrev S8192x1 : Shape := ⟨2, ![8192, 1]⟩
abbrev S2048x751 : Shape := ⟨2, ![2048, 751]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x751, .f32⟩
  | .hbm, ⟨2, _⟩ => ⟨S8192, .i32⟩
  | .hbm, ⟨3, _⟩ => ⟨S751x2048, .f32⟩
  | .hbm, ⟨4, _⟩ => ⟨S751x2048, .f32⟩
  | .hbm, ⟨5, _⟩ => ⟨S_, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x2048, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192x2048, .f32⟩
  | .hbm, ⟨24, _⟩ => ⟨S751x2048, .f32⟩
  | .hbm, ⟨25, _⟩ => ⟨S2048x751, .f32⟩
  | .hbm, ⟨26, _⟩ => ⟨S8192x751, .f32⟩
  | .hbm, ⟨27, _⟩ => ⟨S8192x2048, .f32⟩
  | .hbm, ⟨28, _⟩ => ⟨S2048x751, .f32⟩
  | .hbm, ⟨29, _⟩ => ⟨S8192x751, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x751, .f32⟩
  | .hbm, ⟨37, _⟩ => ⟨S8192x751, .f32⟩
  | .hbm, ⟨38, _⟩ => ⟨S8192x751, .f32⟩
  | .hbm, ⟨39, _⟩ => ⟨S8192x751, .f32⟩
  | .hbm, ⟨40, _⟩ => ⟨S8192x751, .f32⟩
  | .hbm, ⟨41, _⟩ => ⟨S8192x751, .f32⟩
  | .hbm, ⟨42, _⟩ => ⟨S8192x751, .f32⟩
  | .hbm, ⟨43, _⟩ => ⟨S_, .f32⟩
  | .hbm, ⟨44, _⟩ => ⟨S8192x751, .f32⟩
  | .hbm, ⟨45, _⟩ => ⟨S8192x751, .f32⟩
  | .hbm, ⟨46, _⟩ => ⟨S8192x751, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1, .f32⟩
  | .hbm, ⟨53, _⟩ => ⟨S8192x751, .f32⟩
  | .hbm, ⟨54, _⟩ => ⟨S8192x751, .f32⟩
  | .hbm, ⟨55, _⟩ => ⟨S8192x751, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1, .f32⟩
  | .hbm, ⟨60, _⟩ => ⟨S8192x751, .f32⟩
  | .hbm, ⟨61, _⟩ => ⟨S8192x751, .f32⟩
  | .hbm, ⟨62, _⟩ => ⟨S8192x1, .i32⟩
  | .hbm, ⟨63, _⟩ => ⟨S_, .i32⟩
  | .hbm, ⟨64, _⟩ => ⟨S8192x1, .i32⟩
  | .hbm, ⟨65, _⟩ => ⟨S8192x1, .i1⟩
  | .hbm, ⟨66, _⟩ => ⟨S_, .i32⟩
  | .hbm, ⟨67, _⟩ => ⟨S8192x1, .i32⟩
  | .hbm, ⟨68, _⟩ => ⟨S8192x1, .i32⟩
  | .hbm, ⟨69, _⟩ => ⟨S8192x1, .i32⟩
  | .hbm, ⟨70, _⟩ => ⟨S8192x1x1, .i32⟩
  | .hbm, ⟨71, _⟩ => ⟨S1, .i32⟩
  | .hbm, ⟨72, _⟩ => ⟨S_, .i32⟩
  | .hbm, ⟨73, _⟩ => ⟨S8192x1x1, .i32⟩
  | .hbm, ⟨74, _⟩ => ⟨S8192x1x1, .i1⟩
  | .hbm, ⟨75, _⟩ => ⟨S1x1x1, .i32⟩
  | .hbm, ⟨76, _⟩ => ⟨S8192x1x1, .i32⟩
  | .hbm, ⟨77, _⟩ => ⟨S8192x1x1, .i1⟩
  | .hbm, ⟨78, _⟩ => ⟨S8192x1x1, .i1⟩
  | .hbm, ⟨79, _⟩ => ⟨S_, .i1⟩
  | .hbm, ⟨80, _⟩ => ⟨S8192x1, .i1⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_cst_1 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_v34 : Ref sig .tc := ⟨.hbm, 61, rfl⟩
abbrev main_v35 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_cst : Ref sig .tc := ⟨.hbm, 82, rfl⟩
abbrev main_call1_v14 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_cst_6 : Ref sig .tc := ⟨.hbm, 89, rfl⟩
abbrev main_v40 : Ref sig .tc := ⟨.hbm, 90, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S751x2048_S2048x751_1_0 : S751x2048.Transposes [1, 0] S2048x751
  reducesTo_S8192x2048_S8192_d1 : S8192x2048.ReducesTo [1] S8192
  h_S_ : 0 < S_.numel
  bcast_S_S8192x751 : S_.BroadcastsInDim S8192x751 (![] : Fin 0 → Fin S8192x751.rank)
  bcast_S8192x1_S8192x751_0_1 : S8192x1.BroadcastsInDim S8192x751 (![0, 1] : Fin 2 → Fin S8192x751.rank)
  reducesTo_S8192x751_S8192_d1 : S8192x751.ReducesTo [1] S8192
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S751x2048_S8192x1_S8192x2048_1_0_n_n_0_1_12048_wf : GatherDims.WF S751x2048 S8192x1 S8192x2048 [1] [0] [] [0] [] 1 ![1, 2048]
  dot_S8192x2048_S2048x751_S8192x751_1_0_0_1_n_n_wf : DotDims.WF S8192x2048 S2048x751 S8192x751 [1] [0] [0] [1] [] []
  gather_S8192x751_S8192x1x1_S8192x1_n_1_0_0_1_2_11_wf : GatherDims.WF S8192x751 S8192x1x1 S8192x1 [] [1] [0] [1] [0] 2 ![1, 1]

variable [Facts₀]

def gather_S751x2048_S8192x1_S8192x2048_1_0_n_n_0_1_12048 : GatherDims S751x2048 S8192x1 S8192x2048 where
  offsetDims := [1]
  collapsedSliceDims := [0]
  operandBatchingDims := []
  startIndicesBatchingDims := []
  startIndexMap := [0]
  indexVectorDim := 1
  sliceSizes := ![1, 2048]
  wf := gather_S751x2048_S8192x1_S8192x2048_1_0_n_n_0_1_12048_wf
def dot_S8192x2048_S2048x751_S8192x751_1_0_0_1_n_n : DotDims S8192x2048 S2048x751 S8192x751 where
  lhsContracting := [1]
  rhsContracting := [0]
  lhsNonContracting := [0]
  rhsNonContracting := [1]
  lhsBatch := []
  rhsBatch := []
  wf := dot_S8192x2048_S2048x751_S8192x751_1_0_0_1_n_n_wf
def gather_S8192x751_S8192x1x1_S8192x1_n_1_0_0_1_2_11 : GatherDims S8192x751 S8192x1x1 S8192x1 where
  offsetDims := []
  collapsedSliceDims := [1]
  operandBatchingDims := [0]
  startIndicesBatchingDims := [0]
  startIndexMap := [1]
  indexVectorDim := 2
  sliceSizes := ![1, 1]
  wf := gather_S8192x751_S8192x1x1_S8192x1_n_1_0_0_1_2_11_wf

class Facts : Prop extends Facts₀ where

variable [Facts]
-- ==== Proof.Spec.lean ====
/-
  The mathematics both programs compute, over the extended reals, index by index.

  For a batch row `n` with gathered weight row `Wl n ·` and gathered covariance row `CVl n ·`, and a class `c` with
  weight row `w c ·`:
    quad n c  = Σₐ CVl·w² − 2·Σₐ (Wl·CVl)·w + (0 + Σₐ Wl²·CVl)          (the expanded Σₐ (w_c − w_l)²·cv_l)
    aug n c   = y n c + ½·(ρ·quad n c)
    logp n c  = (aug n c − maxₖ aug n k) − log Σₖ exp (aug n k − maxₖ aug n k)
  The kernel takes the row's negative log-likelihood as `0 − Σ_c logp n c · [label n = c]`, the reference as
  `−logp n (label n)`; for a label that IS a class the two agree (every other term of the sum is `logp · 0 = 0`,
  which holds for every extended real). The loss is the mean over the 8192 rows, laid out as a column by the kernel and
  as a vector by the reference.
-/
import Idealize.ShloMosaic.PureOps.Ideal
import Idealize.ShloMosaic.PureOps.Ideal.Laws
import Idealize.ShloMosaic.Lib.ValueIdx
import Mathlib.Data.Finset.Fold

noncomputable section

namespace Cert.Isda

open Idealize.ShloMosaic Idealize.ShloMosaic.ValueIdx

/-- Gathered rows: [8192, 2048]. -/
abbrev SG : Shape := ⟨2, ![8192, 2048]⟩
/-- Class tables: [751, 2048]. -/
abbrev ST : Shape := ⟨2, ![751, 2048]⟩
/-- Logits: [8192, 751]. -/
abbrev SY : Shape := ⟨2, ![8192, 751]⟩
/-- Per-row values as a vector [8192] and as a column [8192, 1]. -/
abbrev SL : Shape := ⟨1, ![8192]⟩
abbrev SC : Shape := ⟨2, ![8192, 1]⟩

/-- The f32 words both programs carry, read at the extended reals (never evaluated: the same word stands on both
    sides; only the zero word is used as the number 0). -/
abbrev two : EReal := Ideal.ofBits .f32 0x40000000#32
abbrev half : EReal := Ideal.ofBits .f32 0x3F000000#32
abbrev zero : EReal := Ideal.ofBits .f32 0x00000000#32
abbrev negInf : EReal := Ideal.ofBits .f32 0xFF800000#32
abbrev count : EReal := Ideal.ofBits .f32 0x46000000#32

section Row

variable (Wl CVl : SG.Idx → EReal) (w : ST.Idx → EReal) (y : SY.Idx → EReal) (ρ : EReal)

/-- The bracket of sigma²: Σₐ cv·w_c² − 2·Σₐ (w_l·cv)·w_c + Σₐ w_l²·cv (the last a host sum from the zero word). -/
def quad (n : Fin 8192) (c : Fin 751) : EReal :=
  ((∑ a : Fin 2048, CVl (ix2 n a) * (w (ix2 c a) * w (ix2 c a)))
      - two * ∑ a : Fin 2048, (Wl (ix2 n a) * CVl (ix2 n a)) * w (ix2 c a))
    + (zero + ∑ a : Fin 2048, (Wl (ix2 n a) * Wl (ix2 n a)) * CVl (ix2 n a))

/-- The augmented logit. -/
def aug (n : Fin 8192) (c : Fin 751) : EReal :=
  y (ix2 n c) + half * (ρ * quad Wl CVl w n c)

/-- The log-softmax of one row `a` of logits: `(a c − max a) − log Σₖ exp (a k − max a)`, the maximum folded from the −∞ word. -/
def logpOf (a : Fin 751 → EReal) (c : Fin 751) : EReal :=
  (a c - (Finset.univ : Finset (Fin 751)).fold max negInf a)
    - Ideal.log (∑ k : Fin 751, Ideal.exp (a k - (Finset.univ : Finset (Fin 751)).fold max negInf a))

/-- The log-softmax of the augmented logits. -/
def logp (n : Fin 8192) (c : Fin 751) : EReal :=
  logpOf (aug Wl CVl w y ρ n) c

end Row

/-- Folding `max` from the −∞ word and then taking `max` with that word again changes nothing: the word is below the fold. -/
theorem max_negInf_fold (a : Fin 751 → EReal) :
    max negInf ((Finset.univ : Finset (Fin 751)).fold max negInf a) = (Finset.univ : Finset (Fin 751)).fold max negInf a :=
  max_eq_right ((Finset.le_fold_max _).mpr (Or.inl le_rfl))

/-- The kernel's one-hot weight of class `c` for the label word `l`: the comparison's bit, widened and read signed. -/
def hot (l : BitVec 32) (c : Fin 751) : EReal :=
  (((((IntOp.cmpi .eq l (BitVec.ofNat 32 c.val)).setWidth 32).toInt : ℤ) : ℝ) : EReal)

theorem ofNat_inj_751 {a b : Fin 751} (h : BitVec.ofNat 32 a.val = BitVec.ofNat 32 b.val) : a = b := by
  have := congrArg BitVec.toNat h
  simp only [BitVec.toNat_ofNat] at this
  have ha := a.isLt; have hb := b.isLt
  exact Fin.ext (by omega)

/-- The weight is 1 at the label's own class and 0 elsewhere. -/
theorem hot_eq (l : BitVec 32) (c : Fin 751) : hot l c = if l = BitVec.ofNat 32 c.val then 1 else 0 := by
  unfold hot IntOp.cmpi
  by_cases h : l = BitVec.ofNat 32 c.val
  · have hb : (l == BitVec.ofNat 32 c.val) = true := by simpa using h
    have e : ((BitVec.ofBool true).setWidth 32).toInt = 1 := by decide
    rw [if_pos h]; simp only [hb, e]; simp
  · have hb : (l == BitVec.ofNat 32 c.val) = false := by simpa using h
    have e : ((BitVec.ofBool false).setWidth 32).toInt = 0 := by decide
    rw [if_neg h]; simp only [hb, e]; simp

/-- The kernel's masked sum picks the label's class: `0 − Σ_c f c · [l = c] = −f k` when the label word is class `k`;
    the other terms vanish because `x · 0 = 0` for every extended real. -/
theorem nll_onehot (f : Fin 751 → EReal) (l : BitVec 32) (k : Fin 751) (hl : l = BitVec.ofNat 32 k.val) :
    zero - ∑ c : Fin 751, f c * hot l c = -(f k) := by
  have hz : zero = 0 := Ideal.ofBits_zero_f32
  rw [hz, zero_sub]
  congr 1
  rw [Finset.sum_eq_single k]
  · rw [hot_eq, if_pos hl, mul_one]
  · intro c _ hc
    rw [hot_eq, if_neg, mul_zero]
    intro h
    exact hc (ofNat_inj_751 (hl.symm.trans h).symm)
  · intro h; exact absurd (Finset.mem_univ k) h

/-- The mean over the rows held as a column (the kernel's layout) and as a vector (the reference's). -/
def lossK (nll : SC.Idx → EReal) : EReal := Ideal.div (zero + ∑ i : SC.Idx, nll i) count
def lossR (nll : SL.Idx → EReal) : EReal := Ideal.div (zero + ∑ j : SL.Idx, nll j) count

/-- A column and a vector with the same entries have the same mean. -/
theorem lossK_eq_lossR (a : SC.Idx → EReal) (b : SL.Idx → EReal) (h : ∀ n : Fin 8192, a (ix2 n 0) = b (ix1 n)) :
    lossK a = lossR b := by
  unfold lossK lossR
  congr 2
  rw [sum_idx2]
  have e : (∑ j : SL.Idx, b j) = ∑ n : Fin 8192, b (ix1 n) := by
    refine (Equiv.sum_comp (⟨fun n => ix1 n, fun j => j 0, fun _ => rfl, fun j => (eq_ix1 j).symm⟩ : Fin 8192 ≃ SL.Idx) b).symm
  rw [e]
  refine Finset.sum_congr rfl fun n _ => ?_
  rw [Fin.sum_univ_one]
  exact h n

end Cert.Isda

end
-- ==== Proof.Pre.lean ====
/-
  What the precondition says of the labels: every label word is a class, `0 ≤ label < 751` read signed. The printed
  predicate ends in the conjunction of its two range tests over all 8192 labels; each `all` gives its test at every label,
  and a signed word in [0, 751) is the word of a natural number below 751.
-/
import proofs.«400538_j893353198279_2_alg».proof.Pre_finite_inputs
import proofs.«400538_j893353198279_2_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx
import Idealize.ShloMosaic.Lib.Pipeline.Value

noncomputable section

namespace Cert.Pre_finite_inputs.Decode

open Cert.Pre_finite_inputs Cert.Pre_finite_inputs.Facts Idealize.ShloMosaic Idealize.ShloMosaic.ValueIdx

variable {F : FTy → Type} [FloatOps F]

instance : Subsingleton S_.Idx := ⟨fun a b => funext fun d => d.elim0⟩

/-- A word that is at least 0 and below 751, both read signed, is the word of a class. -/
theorem word_range (a : BitVec 32) (h0 : IntOp.cmpi .sge a 0#32 = 1#1) (h1 : IntOp.cmpi .slt a 751#32 = 1#1) :
    ∃ k : Fin 751, a = BitVec.ofNat 32 k.val := by
  simp only [IntOp.cmpi, StableHlo.Predicate.ofBool_eq_one_iff] at h0 h1
  rw [BitVec.sle_iff_toInt_le] at h0
  rw [BitVec.slt_iff_toInt_lt] at h1
  have e0 : (0#32 : BitVec 32).toInt = 0 := by decide
  have e1 : (751#32 : BitVec 32).toInt = 751 := by decide
  rw [e0] at h0; rw [e1] at h1
  have hc := BitVec.toInt_eq_toNat_cond a
  have hlt := a.isLt
  refine ⟨⟨a.toNat, by split_ifs at hc <;> omega⟩, ?_⟩
  show a = BitVec.ofNat 32 a.toNat
  simp

/-- Under the precondition every label word is a class. -/
theorem label_is_class (a0 : FVec F S8192x2048 .f32) (a1 : FVec F S8192x751 .f32) (lab : IVec S8192 32)
    (a3 a4 : FVec F S751x2048 .f32) (a5 : FVec F S_ .f32)
    (h : fn (F := F) a0 a1 lab a3 a4 a5 = fun _ => 1#1) (n : Fin 8192) :
    ∃ k : Fin 751, lab (ix1 n) = BitVec.ofNat 32 k.val := by
  have h0 := congrFun h ix0
  dsimp only [fn, fn_part1] at h0
  obtain ⟨h1, hlt⟩ := IntOp.andi_eq_one.1 h0
  obtain ⟨_, hge⟩ := IntOp.andi_eq_one.1 h1
  have hge' := Host.reduce_andi_all _ _ _ _ _ hge (ix1 n)
  have hlt' := Host.reduce_andi_all _ _ _ _ _ hlt (ix1 n)
  refine word_range (lab (ix1 n)) ?_ ?_
  · exact hge'
  · exact hlt'

end Cert.Pre_finite_inputs.Decode

end
-- ==== Proof.KernelPrefix.lean ====
/-
  The arrays the region finds, at an index, as functions of the argument arrays: what the host operations before the
  pallas_call leave in each buffer the call stages. The two gathers of the class tables at the labels stay opaque
  (`rowsOf`); every other operation is read at an index: a product of two arrays is the product of their entries, a
  change of float format is the identity, the third term is the host's sum along a row from the zero word, and the two
  reshapes only rename indices.
-/
import proofs.«400538_j893353198279_2_alg».proof.Proof.Gen.KernelIdeal.Frame
import proofs.«400538_j893353198279_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Prefix

open Cert.KernelIdeal Cert.KernelIdeal.Gen Idealize.ShloMosaic Idealize.ShloMosaic.TcCoe Idealize.SL.Sem
open Idealize.ShloMosaic.ValueIdx Cert.Isda

/-- The rows of a class table taken at the labels (a negative label first moved up by the class count), as the host's
    gather before the region computes them. -/
def rowsOf (x : ST.Idx → EReal) (lab : SL.Idx → BitVec 32) : SG.Idx → EReal :=
  Host.gather gather_S751x2048_S8192x1_S8192x2048_1_0_n_n_0_1_12048 x
    (broadcastInDim S8192x1 ![0] Cert.KernelIdeal.Facts₀.bcast_S8192_S8192x1_0
      (select (cmpi .slt lab (broadcastInDim S8192 ![] Cert.KernelIdeal.Facts₀.bcast_S_S8192 (constantI S_ 32 0#32)))
        (addi lab (broadcastInDim S8192 ![] Cert.KernelIdeal.Facts₀.bcast_S_S8192 (constantI S_ 32 751#32))) lab))

variable (m : (ℓ : Loc nD τ sig) → Buf (Elt Ideal) ℓ) (c : Dev nD)

/-- The argument arrays as launched, named at the extended reals: the logits, the labels, the weights, the covariances and
    the scale. -/
abbrev yArr : SY.Idx → EReal := m ((c.tc : Thread nD τ).loc main_arg1)
abbrev labArr : SL.Idx → BitVec 32 := m ((c.tc : Thread nD τ).loc main_arg2)
abbrev wArr : ST.Idx → EReal := m ((c.tc : Thread nD τ).loc main_arg3)
abbrev cvArr : ST.Idx → EReal := m ((c.tc : Thread nD τ).loc main_arg4)
abbrev rhoVal : EReal := m ((c.tc : Thread nD τ).loc main_arg5) ix0

/-! ## Each staged array as the host operations' term of the arguments -/

/-- The weights, narrowed. -/
theorem arr_v19 : (V m c main_v19 : S751x2048.Idx → EReal)
    = truncf (F := Ideal) .bf16 (wArr m c) Cert.KernelIdeal.Facts₀.bitsLt_bf16_f32 := by
  show StableHlo.after hostOps0 (fun b => m (c, b)) (Proc.devRef .tc main_v19) = _
  after_results

/-- The squared weights, narrowed. -/
theorem arr_v21 : (V m c main_v21 : S751x2048.Idx → EReal)
    = truncf (F := Ideal) .bf16 (mulf (F := Ideal) (φ := .f32) (wArr m c) (wArr m c)) Cert.KernelIdeal.Facts₀.bitsLt_bf16_f32 := by
  show StableHlo.after hostOps0 (fun b => m (c, b)) (Proc.devRef .tc main_v21) = _
  after_results

/-- The covariance rows at the labels, narrowed. -/
theorem arr_v22 : (V m c main_v22 : S8192x2048.Idx → EReal)
    = truncf (F := Ideal) .bf16 (rowsOf (cvArr m c) (labArr m c)) Cert.KernelIdeal.Facts₀.bitsLt_bf16_f32 := by
  show StableHlo.after hostOps0 (fun b => m (c, b)) (Proc.devRef .tc main_v22) = _
  after_results
  rfl

set_option maxHeartbeats 2000000 in
/-- The products weight × covariance of the label rows, narrowed. -/
theorem arr_v23 : (V m c main_v23 : S8192x2048.Idx → EReal)
    = truncf (F := Ideal) .bf16 (mulf (F := Ideal) (φ := .f32) (rowsOf (wArr m c) (labArr m c)) (rowsOf (cvArr m c) (labArr m c)))
        Cert.KernelIdeal.Facts₀.bitsLt_bf16_f32 := by
  show StableHlo.after hostOps0 (fun b => m (c, b)) (Proc.devRef .tc main_v23) = _
  after_results_simp
  rfl

set_option maxHeartbeats 2000000 in
/-- The third term: the row sums of weight² × covariance, as a column. -/
theorem arr_v18 : (V m c main_v18 : S8192x1.Idx → EReal)
    = broadcastInDim S8192x1 ![0] Cert.KernelIdeal.Facts₀.bcast_S8192_S8192x1_0
        (Host.reduceAdd (F := Ideal) (φ := .f32)
          (mulf (F := Ideal) (φ := .f32) (mulf (F := Ideal) (φ := .f32) (rowsOf (wArr m c) (labArr m c)) (rowsOf (wArr m c) (labArr m c)))
            (rowsOf (cvArr m c) (labArr m c)))
          (constant (F := Ideal) S_ .f32 0x00000000#32) Cert.KernelIdeal.Facts₀.reducesTo_S8192x2048_S8192_d1 Cert.KernelIdeal.Facts₀.h_S_) := by
  show StableHlo.after hostOps0 (fun b => m (c, b)) (Proc.devRef .tc main_v18) = _
  after_results_simp
  rfl

/-- The labels, reshaped to a column. -/
theorem arr_v24 : (V m c main_v24 : S8192x1.Idx → BitVec 32)
    = shapeCast S8192x1 (labArr m c) Cert.KernelIdeal.Facts₀.shapeCasts_S8192_S8192x1 := by
  show StableHlo.after hostOps0 (fun b => m (c, b)) (Proc.devRef .tc main_v24) = _
  after_results
  rfl

/-- The scale, reshaped to 1 × 1. -/
theorem arr_v25 : (V m c main_v25 : S1x1.Idx → EReal)
    = shapeCast S1x1 (m ((c.tc : Thread nD τ).loc main_arg5) : S_.Idx → EReal) Cert.KernelIdeal.Facts₀.shapeCasts_S_S1x1 := by
  show StableHlo.after hostOps0 (fun b => m (c, b)) (Proc.devRef .tc main_v25) = _
  after_results
  rfl

/-! ## … read at an index -/

/-- The weights in the narrow format are the weights. -/
theorem V_v19 (i : S751x2048.Idx) : (V m c main_v19 i : EReal) = wArr m c i :=
  congrFun (arr_v19 m c) i

/-- The squared weights. -/
theorem V_v21 (i : S751x2048.Idx) : (V m c main_v21 i : EReal) = wArr m c i * wArr m c i :=
  congrFun (arr_v21 m c) i

/-- The covariance rows at the labels. -/
theorem V_v22 (i : S8192x2048.Idx) : (V m c main_v22 i : EReal) = rowsOf (cvArr m c) (labArr m c) i :=
  congrFun (arr_v22 m c) i

/-- The products weight × covariance of the label rows. -/
theorem V_v23 (i : S8192x2048.Idx) :
    (V m c main_v23 i : EReal) = rowsOf (wArr m c) (labArr m c) i * rowsOf (cvArr m c) (labArr m c) i :=
  congrFun (arr_v23 m c) i

/-- The third term, a column: the host's sum over the feature axis, from the zero word, of weight² × covariance. -/
theorem V_v18 (n : Fin 8192) :
    (V m c main_v18 (ix2 n 0) : EReal)
      = zero + ∑ a : Fin 2048, (rowsOf (wArr m c) (labArr m c) (ix2 n a) * rowsOf (wArr m c) (labArr m c) (ix2 n a))
          * rowsOf (cvArr m c) (labArr m c) (ix2 n a) := by
  refine (congrFun (arr_v18 m c) (ix2 n 0)).trans ?_
  rw [broadcastInDim_apply _ Cert.KernelIdeal.Facts₀.bcast_S8192_S8192x1_0 _ (ix2 n 0) (ix1 n)
    (fun a => by match a with | ⟨0, _⟩ => rfl)]
  simp only [Host.reduceAdd, Ideal.hostReduceAdd_def]
  rw [Ideal.hostReduceAdd_single Cert.KernelIdeal.Facts₀.reducesTo_S8192x2048_S8192_d1 (by decide)]
  refine congrArg₂ (· + ·) rfl (Finset.sum_congr rfl fun a _ => ?_)
  have e : (Shape.Reduces.lift (s := S8192x2048) (t := S8192) (a := 1) (by decide) (ix1 n) a) = ix2 n a :=
    funext fun d => Fin.ext (by match d with | ⟨0, _⟩ => rfl | ⟨1, _⟩ => rfl)
  rw [e]
  rfl

/-- The labels as a column. -/
theorem V_v24 (n : Fin 8192) : V m c main_v24 (ix2 n 0) = labArr m c (ix1 n) := by
  refine (congrFun (arr_v24 m c) (ix2 n 0)).trans ?_
  exact shapeCast_apply (labArr m c) Cert.KernelIdeal.Facts₀.shapeCasts_S8192_S8192x1 (ix2 n 0) (ix1 n)
    (by rewrite [Shape.rowMajor_val_two, Shape.rowMajor_val_one]; show n.val = n.val * 1 + 0; omega)

/-- The scale as a 1 × 1 array. -/
theorem V_v25 : (V m c main_v25 (ix2 0 0) : EReal) = rhoVal m c := by
  refine (congrFun (arr_v25 m c) (ix2 0 0)).trans ?_
  exact shapeCast_apply (m ((c.tc : Thread nD τ).loc main_arg5) : S_.Idx → EReal) Cert.KernelIdeal.Facts₀.shapeCasts_S_S1x1 (ix2 0 0) ix0
    (by rewrite [Shape.rowMajor_val_two]; rfl)

/-- The logits reach the region as launched. -/
theorem V_arg1 (i : S8192x751.Idx) : (V m c main_arg1 i : EReal) = yArr m c i :=
  congrFun (V_main_arg1 m c) i

end Cert.KernelIdeal.Prefix

end
-- ==== Proof.KernelRow.lean ====
/-
  One row of the kernel's output block, at the extended reals: the body's stored value at row `r` of the point's block
  is `0 − Σ_c logp_c · [label_r = c]`, where `logp` is the log-softmax over the 751 classes of
  `y_{r,c} + ½·(ρ·((Σₐ cv_{r,a}·w2_{c,a} − 2·Σₐ wcv_{r,a}·w_{c,a}) + t3_r))`, every quantity read off the point's input blocks.
-/
import proofs.«400538_j893353198279_2_alg».proof.Proof.Gen.KernelIdeal.Frame
import proofs.«400538_j893353198279_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Isda

/-- The augmented logits of row `r` of a point, from the point's input blocks: the class tables `x0` (weights) and
    `x1` (squared weights), the rows' covariances `x2` and weight-covariance products `x3`, the third term `x4`, the
    logits `x5` and the scale `x7`. -/
def augBlk (x0 x1 : Vec Ideal S751x2048 .bf16) (x2 x3 : Vec Ideal S512x2048 .bf16) (x4 : Vec Ideal S512x1 .f32)
    (x5 : Vec Ideal S512x751 .f32) (x7 : Vec Ideal S1x1 .f32) (r : Fin 512) (c : Fin 751) : EReal :=
  (x5 (ix2 r c) : EReal) + half * ((x7 (ix2 0 0) : EReal)
    * ((((∑ a : Fin 2048, (x2 (ix2 r a) : EReal) * (x1 (ix2 c a) : EReal))
          - two * ∑ a : Fin 2048, (x3 (ix2 r a) : EReal) * (x0 (ix2 c a) : EReal))) + (x4 (ix2 r 0) : EReal)))

theorem hz : (![0, 0] : Fin 2 → Nat) = fun _ => 0 := funext fun a => by fin_cases a <;> rfl

theorem out0_8_eq (x0 x1 : Vec Ideal S751x2048 .bf16) (x2 x3 : Vec Ideal S512x2048 .bf16) (x4 : Vec Ideal S512x1 .f32)
    (x5 : Vec Ideal S512x751 .f32) (x6 : Vec Ideal S512x1 .i32) (x7 : Vec Ideal S1x1 .f32) :
    out0_8 (F := Ideal) x0 x1 x2 x3 x4 x5 x6 x7 = k0_pay1 (k0_pay2 x0 x1 x2 x3 x7 x4 x5) (k0_pay3 x6) := by
  unfold out0_8
  rw [View.canon_unit_zero hz]
  simp only [View.ld_unit_zero (S := S751x2048) hz, View.ld_unit_zero (S := S512x2048) hz, View.ld_unit_zero (S := S1x1) hz,
    View.ld_unit_zero (S := S512x1) hz, View.ld_unit_zero (S := S512x751) hz]

theorem lhs_0 (i : S512x751.Idx) (q : dot_S512x2048_S751x2048_S512x751_1_1_0_0_n_n.contr.Idx) :
    (dot_S512x2048_S751x2048_S512x751_1_1_0_0_n_n.lhsIdx i q 0).val = (i 0).val := by
  unfold DotDims.lhsIdx
  rw [dif_neg (show ¬(0 : Fin S512x2048.rank) ∈ dot_S512x2048_S751x2048_S512x751_1_1_0_0_n_n.lhsBatch by decide), dif_pos (show (0 : Fin S512x2048.rank) ∈ dot_S512x2048_S751x2048_S512x751_1_1_0_0_n_n.lhsNonContracting by decide)]
  rfl
theorem lhs_1 (i : S512x751.Idx) (q : dot_S512x2048_S751x2048_S512x751_1_1_0_0_n_n.contr.Idx) :
    (dot_S512x2048_S751x2048_S512x751_1_1_0_0_n_n.lhsIdx i q 1).val = (q ⟨0, by decide⟩).val :=
  dot_S512x2048_S751x2048_S512x751_1_1_0_0_n_n.lhsIdx_val_of_single rfl i q
theorem rhs_0 (i : S512x751.Idx) (q : dot_S512x2048_S751x2048_S512x751_1_1_0_0_n_n.contr.Idx) :
    (dot_S512x2048_S751x2048_S512x751_1_1_0_0_n_n.rhsIdx i q 0).val = (i 1).val := by
  unfold DotDims.rhsIdx
  rw [dif_neg (show ¬(0 : Fin S751x2048.rank) ∈ dot_S512x2048_S751x2048_S512x751_1_1_0_0_n_n.rhsBatch by decide), dif_pos (show (0 : Fin S751x2048.rank) ∈ dot_S512x2048_S751x2048_S512x751_1_1_0_0_n_n.rhsNonContracting by decide)]
  rfl
theorem rhs_1 (i : S512x751.Idx) (q : dot_S512x2048_S751x2048_S512x751_1_1_0_0_n_n.contr.Idx) :
    (dot_S512x2048_S751x2048_S512x751_1_1_0_0_n_n.rhsIdx i q 1).val = (q ⟨0, by decide⟩).val :=
  dot_S512x2048_S751x2048_S512x751_1_1_0_0_n_n.rhsIdx_val_of_single rfl i q

/-- A product of a [512,2048] block with the transpose of a [751,2048] table into a zero accumulator, read at (r, c). -/
theorem matmul_at (a : FVec Ideal S512x2048 .bf16) (b : FVec Ideal S751x2048 .bf16) (r : Fin 512) (c : Fin 751) :
    matmul dot_S512x2048_S751x2048_S512x751_1_1_0_0_n_n none a b (constant (F := Ideal) S512x751 .f32 0x00000000#32) (ix2 r c)
      = ∑ k : Fin 2048, (a (ix2 r k) : EReal) * (b (ix2 c k) : EReal) := by
  refine (Ideal.matmul_constant_zero_apply dot_S512x2048_S751x2048_S512x751_1_1_0_0_n_n none a b (ix2 r c)).trans ?_
  rw [← Equiv.sum_comp (ValueIdx.contrEquiv1 dot_S512x2048_S751x2048_S512x751_1_1_0_0_n_n 2048 rfl rfl).symm]
  refine Finset.sum_congr rfl fun k _ => ?_
  have hk := ValueIdx.contrEquiv1_symm_val dot_S512x2048_S751x2048_S512x751_1_1_0_0_n_n 2048 rfl rfl k
  have el : dot_S512x2048_S751x2048_S512x751_1_1_0_0_n_n.lhsIdx (ix2 r c) ((ValueIdx.contrEquiv1 dot_S512x2048_S751x2048_S512x751_1_1_0_0_n_n 2048 rfl rfl).symm k) = ix2 r k := funext fun a => Fin.ext (by
    match a with
    | ⟨0, _⟩ => exact lhs_0 _ _
    | ⟨1, _⟩ => exact (lhs_1 _ _).trans hk)
  have er : dot_S512x2048_S751x2048_S512x751_1_1_0_0_n_n.rhsIdx (ix2 r c) ((ValueIdx.contrEquiv1 dot_S512x2048_S751x2048_S512x751_1_1_0_0_n_n 2048 rfl rfl).symm k) = ix2 c k := funext fun a => Fin.ext (by
    match a with
    | ⟨0, _⟩ => exact rhs_0 _ _
    | ⟨1, _⟩ => exact (rhs_1 _ _).trans hk)
  rw [el, er]

/-- The reduced index r with class k put back is (r, k). -/
theorem lift_row (h : S512x751.Reduces [1] S512) (r : Fin 512) (k : Fin (S512x751.size 1)) :
    h.lift (ix1 r) k = ix2 r (⟨k.val, k.isLt⟩ : Fin 751) := by
  funext c; apply Fin.ext
  fin_cases c <;> rfl

/-! ## The keepdims column forms -/

section Cols
variable {α : Type}

/-- A vector [512] viewed as a column [512,1], read at (r, 0), is the vector at r. -/
theorem colCast_apply (u : S512.Idx → α) (r : Fin 512) :
    shapeCast S512x1 u shapeCasts_S512_S512x1 (ix2 r 0) = u (ix1 r) := by
  refine shapeCast_apply u shapeCasts_S512_S512x1 (ix2 r 0) (ix1 r) ?_
  rw [Shape.rowMajor_val_one, Shape.rowMajor_val_two]
  show r.val = r.val * 1 + 0
  omega

/-- A column [512,1] broadcast along the classes, read at (r, c), is the column at (r, 0). -/
theorem colBcast_apply (u : S512x1.Idx → α) (r : Fin 512) (c : Fin 751) :
    broadcastTo S512x751 u broadcasts_S512x1_S512x751 (ix2 r c) = u (ix2 r 0) := by
  refine broadcastTo_apply u broadcasts_S512x1_S512x751 (ix2 r c) (ix2 r 0) fun a => ?_
  match a with
  | ⟨0, _⟩ => show r.val = if (512 : Nat) = 1 then 0 else r.val; rw [if_neg (by decide)]
  | ⟨1, _⟩ => show (0 : Nat) = if (1 : Nat) = 1 then 0 else c.val; rw [if_pos rfl]

end Cols

/-! ## The two lane reductions of a row -/

/-- The maximum over the classes from the −∞ word, at row r. -/
theorem rowMax_apply (v : FVec Ideal S512x751 .f32) (r : Fin 512) :
    multiReduction (F := Ideal) .maximumf [1] S512 v 0xFF800000#32 reduces_S512x751_S512 (.inl rfl) rfl (ix1 r)
      = (Finset.univ : Finset (Fin 751)).fold max negInf (fun k => v (ix2 r k)) := by
  refine (Ideal.multiReduction_maximumf_single v _ reduces_S512x751_S512 (.inl rfl) rfl (ix1 r)).trans ?_
  have hf : (v ∘ reduces_S512x751_S512.lift (ix1 r)) = fun k : Fin 751 => v (ix2 r k) :=
    funext fun k => congrArg v (lift_row _ r k)
  exact congrArg (fun f => Finset.fold max negInf f (Finset.univ : Finset (Fin 751))) hf

/-- The sum over the classes from the zero word, at row r. -/
theorem rowSum_apply (v : FVec Ideal S512x751 .f32) (r : Fin 512) :
    multiReduction (F := Ideal) .add [1] S512 v 0x00000000#32 reduces_S512x751_S512 (.inl rfl) rfl (ix1 r)
      = ∑ k : Fin 751, v (ix2 r k) := by
  refine (Ideal.multiReduction_add_single v _ reduces_S512x751_S512 (.inl rfl) rfl (ix1 r)).trans ?_
  exact Finset.sum_congr rfl fun k _ => congrArg v (lift_row _ r k)

/-! ## The log-softmax of a block of rows -/

/-- A block with each row's maximum subtracted. -/
def cen (v : FVec Ideal S512x751 .f32) : FVec Ideal S512x751 .f32 :=
  subf v (broadcastTo S512x751 (shapeCast S512x1 (multiReduction (F := Ideal) .maximumf [1] S512 v 0xFF800000#32 reduces_S512x751_S512 (.inl rfl) rfl) shapeCasts_S512_S512x1) broadcasts_S512x1_S512x751)

/-- The block's log-softmax along the classes. -/
def lsm (v : FVec Ideal S512x751 .f32) : FVec Ideal S512x751 .f32 :=
  subf (cen v) (broadcastTo S512x751 (log (shapeCast S512x1 (multiReduction (F := Ideal) .add [1] S512 (exp (cen v)) 0x00000000#32 reduces_S512x751_S512 (.inl rfl) rfl) shapeCasts_S512_S512x1)) broadcasts_S512x1_S512x751)

theorem cen_apply (v : FVec Ideal S512x751 .f32) (r : Fin 512) (c : Fin 751) :
    cen v (ix2 r c) = (v (ix2 r c) : EReal) - (Finset.univ : Finset (Fin 751)).fold max negInf (fun k => v (ix2 r k)) := by
  unfold cen
  rw [subf_apply, colBcast_apply, colCast_apply, rowMax_apply]

theorem lsm_apply (v : FVec Ideal S512x751 .f32) (r : Fin 512) (c : Fin 751) :
    lsm v (ix2 r c) = logpOf (fun k => v (ix2 r k)) c := by
  unfold lsm logpOf
  rw [subf_apply, colBcast_apply]
  show cen v (ix2 r c) - Ideal.log (shapeCast S512x1 (multiReduction (F := Ideal) .add [1] S512 (exp (cen v)) 0x00000000#32 reduces_S512x751_S512 (.inl rfl) rfl) shapeCasts_S512_S512x1 (ix2 r 0)) = _
  rw [colCast_apply, rowSum_apply, cen_apply]
  have hs : (∑ k : Fin 751, exp (cen v) (ix2 r k))
      = ∑ k : Fin 751, Ideal.exp ((fun k => v (ix2 r k)) k - (Finset.univ : Finset (Fin 751)).fold max negInf (fun k => v (ix2 r k))) :=
    Finset.sum_congr rfl fun k _ => by
      show Ideal.exp (cen v (ix2 r k)) = _
      rw [cen_apply]
  rw [hs]

/-! ## The augmented logits -/

theorem pos00 (h : ∀ a, (![0, 0] : Fin 2 → Nat) a < S1x1.size a) :
    (fun a => (⟨(![0, 0] : Fin 2 → Nat) a, h a⟩ : Fin (S1x1.size a))) = (ix2 0 0 : S1x1.Idx) := by
  funext a; apply Fin.ext
  fin_cases a <;> rfl

/-- The block of augmented logits, as the body computes it from the point's input blocks. -/
def augV (x0 x1 : Vec Ideal S751x2048 .bf16) (x2 x3 : Vec Ideal S512x2048 .bf16) (x4 : Vec Ideal S512x1 .f32)
    (x5 : Vec Ideal S512x751 .f32) (x7 : Vec Ideal S1x1 .f32) : FVec Ideal S512x751 .f32 :=
  addf x5 (mulf (broadcast S512x751 (Scalar.ofBits (F := Ideal) .f32 0x3F000000#32))
    (mulf (broadcast S512x751 (extractAt ![0, 0] x7 inpos_S1x1_p0_0))
      (addf (subf (matmul (φ₁ := .bf16) (φ₂ := .bf16) dot_S512x2048_S751x2048_S512x751_1_1_0_0_n_n none x2 x1 (constant (F := Ideal) S512x751 .f32 0x00000000#32))
              (mulf (broadcast S512x751 (Scalar.ofBits (F := Ideal) .f32 0x40000000#32))
                (matmul (φ₁ := .bf16) (φ₂ := .bf16) dot_S512x2048_S751x2048_S512x751_1_1_0_0_n_n none x3 x0 (constant (F := Ideal) S512x751 .f32 0x00000000#32))))
        (broadcastTo S512x751 x4 broadcasts_S512x1_S512x751))))

theorem augV_apply (x0 x1 : Vec Ideal S751x2048 .bf16) (x2 x3 : Vec Ideal S512x2048 .bf16) (x4 : Vec Ideal S512x1 .f32)
    (x5 : Vec Ideal S512x751 .f32) (x7 : Vec Ideal S1x1 .f32) (r : Fin 512) (c : Fin 751) :
    augV x0 x1 x2 x3 x4 x5 x7 (ix2 r c) = augBlk x0 x1 x2 x3 x4 x5 x7 r c := by
  unfold augV augBlk
  rw [addf_apply, mulf_apply, mulf_apply, addf_apply, subf_apply, mulf_apply, broadcast_apply, broadcast_apply, broadcast_apply,
    matmul_at, matmul_at, colBcast_apply]
  unfold extractAt
  rw [pos00]
  rfl

/-- The body's second payload is the log-softmax of the augmented logits. -/
theorem pay2_eq (x0 x1 : Vec Ideal S751x2048 .bf16) (x2 x3 : Vec Ideal S512x2048 .bf16) (x4 : Vec Ideal S512x1 .f32)
    (x5 : Vec Ideal S512x751 .f32) (x7 : Vec Ideal S1x1 .f32) :
    k0_pay2 (F := Ideal) x0 x1 x2 x3 x7 x4 x5 = lsm (augV x0 x1 x2 x3 x4 x5 x7) := by
  unfold k0_pay2
  simp only [shapeCast_self]
  rfl

theorem pay2_apply (x0 x1 : Vec Ideal S751x2048 .bf16) (x2 x3 : Vec Ideal S512x2048 .bf16) (x4 : Vec Ideal S512x1 .f32)
    (x5 : Vec Ideal S512x751 .f32) (x7 : Vec Ideal S1x1 .f32) (r : Fin 512) (c : Fin 751) :
    k0_pay2 (F := Ideal) x0 x1 x2 x3 x7 x4 x5 (ix2 r c) = logpOf (augBlk x0 x1 x2 x3 x4 x5 x7 r) c := by
  rw [pay2_eq, lsm_apply]
  exact congrArg (fun a => logpOf a c) (funext fun k => augV_apply x0 x1 x2 x3 x4 x5 x7 r k)

/-! ## The masked sum -/

/-- The body's first payload at row r: the zero word minus the sum over the classes of the row's values weighted by
    the comparison of the row's label with the class number. -/
theorem pay1_apply (v34 : FVec Ideal S512x751 .f32) (v36 : IVec S512x1 32) (r : Fin 512) :
    (k0_pay1 (F := Ideal) v34 v36 (ix2 r 0) : EReal) = zero - ∑ c : Fin 751, (v34 (ix2 r c) : EReal) * hot (v36 (ix2 r 0)) c := by
  unfold k0_pay1
  show subf (broadcast S512x1 (Scalar.ofBits (F := Ideal) .f32 0x00000000#32))
      (shapeCast S512x1 (multiReduction (F := Ideal) .add [1] S512
        (mulf v34 (sitofp .f32 (extui 32 (cmpi .eq (broadcastTo S512x751 v36 broadcasts_S512x1_S512x751)
          (iota .tc S512x751 32 [1] iota_S512x751_d1_w32)) natLt_1_32)))
        0x00000000#32 reduces_S512x751_S512 (.inl rfl) rfl) shapeCasts_S512_S512x1) (ix2 r 0) = _
  rw [subf_apply, broadcast_apply, colCast_apply, rowSum_apply]
  have hs : (∑ c : Fin 751, mulf v34 (sitofp .f32 (extui 32 (cmpi .eq (broadcastTo S512x751 v36 broadcasts_S512x1_S512x751)
          (iota .tc S512x751 32 [1] iota_S512x751_d1_w32)) natLt_1_32)) (ix2 r c))
      = ∑ c : Fin 751, (v34 (ix2 r c) : EReal) * hot (v36 (ix2 r 0)) c :=
    Finset.sum_congr rfl fun c _ => by
      rw [mulf_apply, sitofp_apply, extui_apply]
      show (v34 (ix2 r c) : EReal) * (((((IntOp.cmpi .eq (broadcastTo S512x751 v36 broadcasts_S512x1_S512x751 (ix2 r c))
          (iota .tc S512x751 32 [1] iota_S512x751_d1_w32 (ix2 r c))).setWidth 32).toInt : ℤ) : ℝ) : EReal) = _
      rw [colBcast_apply, iota_single_apply]
      rfl
  rw [hs]
  rfl

theorem pay3_eq (x6 : Vec Ideal S512x1 .i32) : k0_pay3 (F := Ideal) x6 = x6 := by
  unfold k0_pay3
  exact shapeCast_self _ _

/-- Row `r` of what the body stores: the masked sum of the row's log-softmax, negated by subtraction from the zero word. -/
theorem out0_8_row (x0 x1 : Vec Ideal S751x2048 .bf16) (x2 x3 : Vec Ideal S512x2048 .bf16) (x4 : Vec Ideal S512x1 .f32)
    (x5 : Vec Ideal S512x751 .f32) (x6 : Vec Ideal S512x1 .i32) (x7 : Vec Ideal S1x1 .f32) (r : Fin 512) :
    (out0_8 (F := Ideal) x0 x1 x2 x3 x4 x5 x6 x7 (ix2 r 0) : EReal)
      = zero - ∑ c : Fin 751, logpOf (augBlk x0 x1 x2 x3 x4 x5 x7 r) c * hot (x6 (ix2 r 0)) c := by
  rw [out0_8_eq, pay1_apply, pay3_eq]
  exact congrArg (fun s => zero - s)
    (Finset.sum_congr rfl fun c _ => congrArg (fun a => a * hot (x6 (ix2 r 0)) c) (pay2_apply x0 x1 x2 x3 x4 x5 x7 r c))

end Cert.KernelIdeal.Row

end
-- ==== Proof.KernelRun.lean ====
/-
  The kernel program's run at the extended reals: every weakly fair execution terminates with the result buffer at the mean,
  over the rows held as a column, of `0 − Σ_c logp n c · [label n = c]` (Spec.lean), the rows of the two class tables gathered
  at the labels by the host before the region, and the arguments unchanged.

  The road: each input window's block at a grid point is its array read at the block's rows (the two class tables and the
  scale whole, every other window rows `512 t … 512 t + 511` at point `t`); with the arrays the region finds read at an
  index, the augmented logits the body forms from row `r` of point `t`'s blocks are those of row `512 t + r` of the batch, so
  what the body stores there is that row's negative log-likelihood; point `t` writes back its block of the column of these,
  the sixteen blocks cover the column, and the host's sum over the column divided by the row count is the mean.
-/
import proofs.«400538_j893353198279_2_alg».proof.Proof.Gen.KernelIdeal.Frame
import proofs.«400538_j893353198279_2_alg».proof.Proof.KernelRow
import proofs.«400538_j893353198279_2_alg».proof.Proof.KernelPrefix
import proofs.«400538_j893353198279_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.RunV

open Cert.KernelIdeal Cert.KernelIdeal.Gen Idealize.ShloMosaic Idealize.ShloMosaic.TcCoe Idealize.SL.Sem
open Idealize.ShloMosaic.ValueIdx Cert.Isda Cert.KernelIdeal.Prefix

/-- The kernel's value of the loss, as a function of the argument arrays. -/
def lossOf (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal)) : EReal :=
  lossK (fun i => zero - ∑ cl : Fin 751, logp (rowsOf w lab) (rowsOf cv lab) w y (ρ ix0) (i 0) cl * hot (lab (ix1 (i 0))) cl)

section Blocks

variable (m : (ℓ : Loc nD τ sig) → Buf (Elt Ideal) ℓ)

/-- The windows' block indices over the grid: the two class tables and the scale are one whole block, every other
    window's block at point `t` is block `t` along the rows. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The input windows' blocks at a point, each at its literal type: the weights, the squared weights, the rows'
    covariances, the rows' weight-covariance products, the third term, the logits, the labels and the scale. -/
abbrev b0 (c : Dev nD) (t : Fin cfg0.N) : Vec Ideal S751x2048 .bf16 := iblk m c 0 t
abbrev b1 (c : Dev nD) (t : Fin cfg0.N) : Vec Ideal S751x2048 .bf16 := iblk m c 1 t
abbrev b2 (c : Dev nD) (t : Fin cfg0.N) : Vec Ideal S512x2048 .bf16 := iblk m c 2 t
abbrev b3 (c : Dev nD) (t : Fin cfg0.N) : Vec Ideal S512x2048 .bf16 := iblk m c 3 t
abbrev b4 (c : Dev nD) (t : Fin cfg0.N) : Vec Ideal S512x1 .f32 := iblk m c 4 t
abbrev b5 (c : Dev nD) (t : Fin cfg0.N) : Vec Ideal S512x751 .f32 := iblk m c 5 t
abbrev b6 (c : Dev nD) (t : Fin cfg0.N) : Vec Ideal S512x1 .i32 := iblk m c 6 t
abbrev b7 (c : Dev nD) (t : Fin cfg0.N) : Vec Ideal S1x1 .f32 := iblk m c 7 t

/-- The weights' block at every point is the whole table. -/
theorem blk0_apply (c : Dev nD) (t : Fin cfg0.N) (k : Fin 751) (a : Fin 2048) :
    b0 m c t (ix2 k a) = (V m c main_v19 : S751x2048.Idx → Elt Ideal .bf16) (ix2 k a) := by
  obtain ⟨e00, e01, e10, e11, e20, e21, e30, e31, e40, e41, e50, e51, e60, e61, e70, e71, e80, e81⟩ := idx_facts t
  unfold b0 iblk
  rw [View.read_apply]
  show V m c main_v19 _ = V m c main_v19 _
  congr 1
  funext b
  apply Fin.ext
  match b with
  | ⟨0, _⟩ => show win0_0.index t (0 : Fin 2) * 751 + 1 * k.val = k.val; omega
  | ⟨1, _⟩ => show win0_0.index t (1 : Fin 2) * 2048 + 1 * a.val = a.val; omega

/-- The squared weights' block at every point is the whole table. -/
theorem blk1_apply (c : Dev nD) (t : Fin cfg0.N) (k : Fin 751) (a : Fin 2048) :
    b1 m c t (ix2 k a) = (V m c main_v21 : S751x2048.Idx → Elt Ideal .bf16) (ix2 k a) := by
  obtain ⟨e00, e01, e10, e11, e20, e21, e30, e31, e40, e41, e50, e51, e60, e61, e70, e71, e80, e81⟩ := idx_facts t
  unfold b1 iblk
  rw [View.read_apply]
  show V m c main_v21 _ = V m c main_v21 _
  congr 1
  funext b
  apply Fin.ext
  match b with
  | ⟨0, _⟩ => show win0_1.index t (0 : Fin 2) * 751 + 1 * k.val = k.val; omega
  | ⟨1, _⟩ => show win0_1.index t (1 : Fin 2) * 2048 + 1 * a.val = a.val; omega

/-- Row `r` of point `t`'s block of the covariance rows is row `512 t + r` of the array. -/
theorem blk2_apply (c : Dev nD) (t : Fin cfg0.N) (r : Fin 512) (a : Fin 2048) (n : Fin 8192) (hn : n.val = 512 * t.val + r.val) :
    b2 m c t (ix2 r a) = (V m c main_v22 : S8192x2048.Idx → Elt Ideal .bf16) (ix2 n a) := by
  obtain ⟨e00, e01, e10, e11, e20, e21, e30, e31, e40, e41, e50, e51, e60, e61, e70, e71, e80, e81⟩ := idx_facts t
  unfold b2 iblk
  rw [View.read_apply]
  show V m c main_v22 _ = V m c main_v22 _
  congr 1
  funext b
  apply Fin.ext
  match b with
  | ⟨0, _⟩ => show win0_2.index t (0 : Fin 2) * 512 + 1 * r.val = n.val; omega
  | ⟨1, _⟩ => show win0_2.index t (1 : Fin 2) * 2048 + 1 * a.val = a.val; omega

/-- Row `r` of point `t`'s block of the weight-covariance products is row `512 t + r` of the array. -/
theorem blk3_apply (c : Dev nD) (t : Fin cfg0.N) (r : Fin 512) (a : Fin 2048) (n : Fin 8192) (hn : n.val = 512 * t.val + r.val) :
    b3 m c t (ix2 r a) = (V m c main_v23 : S8192x2048.Idx → Elt Ideal .bf16) (ix2 n a) := by
  obtain ⟨e00, e01, e10, e11, e20, e21, e30, e31, e40, e41, e50, e51, e60, e61, e70, e71, e80, e81⟩ := idx_facts t
  unfold b3 iblk
  rw [View.read_apply]
  show V m c main_v23 _ = V m c main_v23 _
  congr 1
  funext b
  apply Fin.ext
  match b with
  | ⟨0, _⟩ => show win0_3.index t (0 : Fin 2) * 512 + 1 * r.val = n.val; omega
  | ⟨1, _⟩ => show win0_3.index t (1 : Fin 2) * 2048 + 1 * a.val = a.val; omega

/-- Row `r` of point `t`'s block of the third term is row `512 t + r` of the column. -/
theorem blk4_apply (c : Dev nD) (t : Fin cfg0.N) (r : Fin 512) (a : Fin 1) (n : Fin 8192) (hn : n.val = 512 * t.val + r.val) :
    b4 m c t (ix2 r a) = (V m c main_v18 : S8192x1.Idx → Elt Ideal .f32) (ix2 n a) := by
  obtain ⟨e00, e01, e10, e11, e20, e21, e30, e31, e40, e41, e50, e51, e60, e61, e70, e71, e80, e81⟩ := idx_facts t
  unfold b4 iblk
  rw [View.read_apply]
  show V m c main_v18 _ = V m c main_v18 _
  congr 1
  funext b
  apply Fin.ext
  match b with
  | ⟨0, _⟩ => show win0_4.index t (0 : Fin 2) * 512 + 1 * r.val = n.val; omega
  | ⟨1, _⟩ => show win0_4.index t (1 : Fin 2) * 1 + 1 * a.val = a.val; omega

/-- Row `r` of point `t`'s block of the logits is row `512 t + r` of the array. -/
theorem blk5_apply (c : Dev nD) (t : Fin cfg0.N) (r : Fin 512) (a : Fin 751) (n : Fin 8192) (hn : n.val = 512 * t.val + r.val) :
    b5 m c t (ix2 r a) = (V m c main_arg1 : S8192x751.Idx → Elt Ideal .f32) (ix2 n a) := by
  obtain ⟨e00, e01, e10, e11, e20, e21, e30, e31, e40, e41, e50, e51, e60, e61, e70, e71, e80, e81⟩ := idx_facts t
  unfold b5 iblk
  rw [View.read_apply]
  show V m c main_arg1 _ = V m c main_arg1 _
  congr 1
  funext b
  apply Fin.ext
  match b with
  | ⟨0, _⟩ => show win0_5.index t (0 : Fin 2) * 512 + 1 * r.val = n.val; omega
  | ⟨1, _⟩ => show win0_5.index t (1 : Fin 2) * 751 + 1 * a.val = a.val; omega

/-- Row `r` of point `t`'s block of the labels is row `512 t + r` of the column. -/
theorem blk6_apply (c : Dev nD) (t : Fin cfg0.N) (r : Fin 512) (a : Fin 1) (n : Fin 8192) (hn : n.val = 512 * t.val + r.val) :
    b6 m c t (ix2 r a) = (V m c main_v24 : S8192x1.Idx → Elt Ideal .i32) (ix2 n a) := by
  obtain ⟨e00, e01, e10, e11, e20, e21, e30, e31, e40, e41, e50, e51, e60, e61, e70, e71, e80, e81⟩ := idx_facts t
  unfold b6 iblk
  rw [View.read_apply]
  show V m c main_v24 _ = V m c main_v24 _
  congr 1
  funext b
  apply Fin.ext
  match b with
  | ⟨0, _⟩ => show win0_6.index t (0 : Fin 2) * 512 + 1 * r.val = n.val; omega
  | ⟨1, _⟩ => show win0_6.index t (1 : Fin 2) * 1 + 1 * a.val = a.val; omega

/-- The scale's block at every point is the whole 1 × 1 array. -/
theorem blk7_apply (c : Dev nD) (t : Fin cfg0.N) (k : Fin 1) (a : Fin 1) :
    b7 m c t (ix2 k a) = (V m c main_v25 : S1x1.Idx → Elt Ideal .f32) (ix2 k a) := by
  obtain ⟨e00, e01, e10, e11, e20, e21, e30, e31, e40, e41, e50, e51, e60, e61, e70, e71, e80, e81⟩ := idx_facts t
  unfold b7 iblk
  rw [View.read_apply]
  show V m c main_v25 _ = V m c main_v25 _
  congr 1
  funext b
  apply Fin.ext
  match b with
  | ⟨0, _⟩ => show win0_7.index t (0 : Fin 2) * 1 + 1 * k.val = k.val; omega
  | ⟨1, _⟩ => show win0_7.index t (1 : Fin 2) * 1 + 1 * a.val = a.val; omega

/-- An index of the result column is in point `t`'s block iff each coordinate is in the block's range on its axis. -/
theorem mem_blk8 (t : Fin cfg0.N) (i : S8192x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v26).slice (win0_8.rect t)).set ↔ _
  rw [View.set_slice_whole, Rect.mem_set_unit]
  exact Iff.rfl

/-- Row `n` of the result column is written back by point `n / 512`. -/
theorem cover8 (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  have hN : cfg0.N = 16 := N_0
  let t : Fin cfg0.N := ⟨(i 0).val / 512, by rw [hN]; omega⟩
  have ht : t.val = (i 0).val / 512 := rfl
  obtain ⟨e00, e01, e10, e11, e20, e21, e30, e31, e40, e41, e50, e51, e60, e61, e70, e71, e80, e81⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1 ≤ (i 1).val ∧ (i 1).val < win0_8.index t (1 : Fin 2) * 1 + 1; omega

end Blocks

section Point

variable (m : (ℓ : Loc nD τ sig) → Buf (Elt Ideal) ℓ)

/-- Row `n`'s negative log-likelihood as the kernel takes it: the masked sum of the row's log-softmax subtracted from
    the zero word. -/
def nll (c : Dev nD) (n : Fin 8192) : EReal :=
  zero - ∑ cl : Fin 751,
    logp (rowsOf (wArr m c) (labArr m c)) (rowsOf (cvArr m c) (labArr m c)) (wArr m c) (yArr m c) (rhoVal m c) n cl
      * hot (labArr m c (ix1 n)) cl

/-- The augmented logits of row `r` of point `t`, read off the point's blocks, are those of row `512 t + r` of the batch. -/
theorem augBlk_eq (c : Dev nD) (t : Fin cfg0.N) (r : Fin 512) (n : Fin 8192) (hn : n.val = 512 * t.val + r.val) :
    Row.augBlk (b0 m c t) (b1 m c t) (b2 m c t) (b3 m c t) (b4 m c t) (b5 m c t) (b7 m c t) r
      = aug (rowsOf (wArr m c) (labArr m c)) (rowsOf (cvArr m c) (labArr m c)) (wArr m c) (yArr m c) (rhoVal m c) n := by
  funext cl
  unfold Row.augBlk aug quad
  have s1 : (∑ a : Fin 2048, (b2 m c t (ix2 r a) : EReal) * (b1 m c t (ix2 cl a) : EReal))
      = ∑ a : Fin 2048, rowsOf (cvArr m c) (labArr m c) (ix2 n a) * (wArr m c (ix2 cl a) * wArr m c (ix2 cl a)) :=
    Finset.sum_congr rfl fun a _ => by rw [blk2_apply m c t r a n hn, blk1_apply m c t cl a, V_v22, V_v21]
  have s2 : (∑ a : Fin 2048, (b3 m c t (ix2 r a) : EReal) * (b0 m c t (ix2 cl a) : EReal))
      = ∑ a : Fin 2048, (rowsOf (wArr m c) (labArr m c) (ix2 n a) * rowsOf (cvArr m c) (labArr m c) (ix2 n a)) * wArr m c (ix2 cl a) :=
    Finset.sum_congr rfl fun a _ => by rw [blk3_apply m c t r a n hn, blk0_apply m c t cl a, V_v23, V_v19]
  rw [s1, s2, blk5_apply m c t r cl n hn, blk7_apply m c t 0 0, blk4_apply m c t r 0 n hn, V_arg1, V_v25, V_v18]

/-- What the body stores at row `r` of point `t` is the negative log-likelihood of row `512 t + r`. -/
theorem point_row (c : Dev nD) (t : Fin cfg0.N) (r : Fin 512) (n : Fin 8192) (hn : n.val = 512 * t.val + r.val) :
    (out0_8 (F := Ideal) (b0 m c t) (b1 m c t) (b2 m c t) (b3 m c t) (b4 m c t) (b5 m c t) (b6 m c t) (b7 m c t) (ix2 r 0) : EReal) = nll m c n := by
  refine (Row.out0_8_row (b0 m c t) (b1 m c t) (b2 m c t) (b3 m c t) (b4 m c t) (b5 m c t) (b6 m c t) (b7 m c t) r).trans ?_
  rw [augBlk_eq m c t r n hn, blk6_apply m c t r 0 n hn, V_v24]
  rfl

/-- The same over any index of the block and the index of the column it is written to. -/
theorem point_idx (c : Dev nD) (t : Fin cfg0.N) (j : S512x1.Idx) (i : S8192x1.Idx) (h0 : (i 0).val = 512 * t.val + (j 0).val) :
    (out0_8 (F := Ideal) (b0 m c t) (b1 m c t) (b2 m c t) (b3 m c t) (b4 m c t) (b5 m c t) (b6 m c t) (b7 m c t) j : EReal) = nll m c (i 0) := by
  obtain ⟨r, q, rfl⟩ : ∃ (r : Fin 512) (q : Fin 1), j = ix2 r q := ⟨j 0, j 1, eq_ix2 j⟩
  obtain ⟨n, p, rfl⟩ : ∃ (n : Fin 8192) (p : Fin 1), i = ix2 n p := ⟨i 0, i 1, eq_ix2 i⟩
  obtain rfl : q = 0 := Subsingleton.elim _ _
  exact point_row m c t r n h0

/-- The column of the rows' negative log-likelihoods. -/
abbrev nllCol (c : Dev nD) : S8192x1.Idx → EReal := fun i => nll m c (i 0)

/-- What point `t` writes back is its block of that column. -/
theorem flushed_eq (c : Dev nD) (t : Fin cfg0.N) :
    (dats m 0 c).flushed 8 t = ((cfg0.win 8).blk t).view.read (Elt Ideal) (nllCol m c) := by
  show (cfg0.win 8).cut (grid0.coords t) ((dats m 0 c).after 8 t) = _
  rw [after0_8]
  obtain ⟨e00, e01, e10, e11, e20, e21, e30, e31, e40, e41, e50, e51, e60, e61, e70, e71, e80, e81⟩ := idx_facts t
  funext j
  exact point_idx m c t j (((cfg0.win 8).blk t).view.emb j) (by
    show win0_8.index t (0 : Fin 2) * 512 + 1 * (j 0).val = 512 * t.val + (j 0).val
    omega)

/-- So the result column ends holding every row's negative log-likelihood. -/
theorem final (c : Dev nD) : (dats m 0 c).arrAt 8 cfg0.N = nllCol m c :=
  (dats m 0 c).arrAt_eq_of_cover 8 (nllCol m c) (fun t _ => flushed_eq m c t) cover8

end Point

section Tail

variable (m : (ℓ : Loc nD τ sig) → Buf (Elt Ideal) ℓ)

/-- The host operations after the region take the mean of the result column: its sum from the zero word over every index,
    divided by the row count's word. -/
theorem tail_v28 (c : Dev nD) :
    Pipeline.afterTail₀ cfgs (dats m) 0 (V0 m) [hostOps1] c main_v28 = fun _ => lossK (nllCol m c) := by
  unfold Pipeline.afterTail₀
  show StableHlo.after hostOps1 _ (Proc.devRef .tc main_v28) = _
  after_results
  have e : Pipeline.withArrays (cfgs 0).spec c (V0 m c) (fun w => (dats m 0 c).arrAt w (cfgs 0).N) (Proc.devRef .tc main_v26)
      = nllCol m c :=
    (Pipeline.withArrays_arr spec0 launch0.win.arr_inj c _ _ 8).trans (final m c)
  rw [e]
  funext j
  show Ideal.div (Ideal.hostReduceAdd reducesTo_S8192x1_S_d0_1 (nllCol m c) zero j) count = lossK (nllCol m c)
  rw [Ideal.hostReduceAdd_total reducesTo_S8192x1_S_d0_1 (fun b => b.elim0) (nllCol m c) zero j]
  rfl

end Tail

section Run

variable (m : (ℓ : Loc nD τ sig) → Buf (Elt Ideal) ℓ)

/-- The mean of that column is the loss as a function of the argument arrays. -/
theorem loss_eq (c : Dev nD) :
    lossK (nllCol m c) = lossOf (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Run

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = (fun _ => lossOf (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v28 (Pipeline.mem_restRefs_of main_v28 (by decide) (by decide))).trans
        ((tail_v28 m c).trans (funext fun _ => loss_eq m c)),
      ((h c).2 main_arg0 (Pipeline.mem_restRefs_of main_arg0 (by decide) (by decide))).trans (W_main_arg0 m (dats m) c),
      ((h c).1 5).trans (((dats m 0 c).arrAt_in 5 rfl _).trans ((A_eq m c 5).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunV

end
-- ==== Proof.RefRunH.lean ====
/-
  The reference program's run: every weakly fair execution of its @main terminates with the result buffer at the last
  stage `val_main_v40` of the argument arrays (the stages are those of RefRead.lean) and the arguments unchanged.
-/
import proofs.«400538_j893353198279_2_alg».proof.Proof.RefRead
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

/-- @main's 85 operations, in order (a called function's operations stand in its call's place, spelt `TRef.…`). -/
abbrev ops : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg2 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 751#32),
    unary main_c_0 main_v2 (broadcastInDim S8192 ![] bcast_S_S8192 : (⟨S_, .i32⟩ : BufTy).Contents (Elt F) → (⟨S8192, .i32⟩ : BufTy).Contents (Elt F)),
    binary main_arg2 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg2 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg3 main_v5 main_v6 ((fun x i => Host.gather gather_S751x2048_S8192x1_S8192x2048_1_0_n_n_0_1_12048 x i) : (⟨S751x2048, .f32⟩ : BufTy).Contents (Elt F) → (⟨S8192x1, .i32⟩ : BufTy).Contents (Elt F) → (⟨S8192x2048, .f32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg2 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 751#32),
    unary main_c_2 main_v9 (broadcastInDim S8192 ![] bcast_S_S8192 : (⟨S_, .i32⟩ : BufTy).Contents (Elt F) → (⟨S8192, .i32⟩ : BufTy).Contents (Elt F)),
    binary main_arg2 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg2 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    binary main_arg4 main_v12 main_v13 ((fun x i => Host.gather gather_S751x2048_S8192x1_S8192x2048_1_0_n_n_0_1_12048 x i) : (⟨S751x2048, .f32⟩ : BufTy).Contents (Elt F) → (⟨S8192x1, .i32⟩ : BufTy).Contents (Elt F) → (⟨S8192x2048, .f32⟩ : BufTy).Contents (Elt F)),
    binary main_arg3 main_arg3 main_v14 (mulf : (⟨S751x2048, .f32⟩ : BufTy).Contents (Elt F) → (⟨S751x2048, .f32⟩ : BufTy).Contents (Elt F) → (⟨S751x2048, .f32⟩ : BufTy).Contents (Elt F)),
    unary main_v14 main_v15 ((transpose S2048x751 [1, 0] · transposes_S751x2048_S2048x751_1_0) : (⟨S751x2048, .f32⟩ : BufTy).Contents (Elt F) → (⟨S2048x751, .f32⟩ : BufTy).Contents (Elt F)),
    binary main_v13 main_v15 main_v16 ((fun l r => Host.dotGeneral dot_S8192x2048_S2048x751_S8192x751_1_0_0_1_n_n none l r) : (⟨S8192x2048, .f32⟩ : BufTy).Contents (Elt F) → (⟨S2048x751, .f32⟩ : BufTy).Contents (Elt F) → (⟨S8192x751, .f32⟩ : BufTy).Contents (Elt F)),
    binary main_v6 main_v13 main_v17 (mulf : (⟨S8192x2048, .f32⟩ : BufTy).Contents (Elt F) → (⟨S8192x2048, .f32⟩ : BufTy).Contents (Elt F) → (⟨S8192x2048, .f32⟩ : BufTy).Contents (Elt F)),
    unary main_arg3 main_v18 ((transpose S2048x751 [1, 0] · transposes_S751x2048_S2048x751_1_0) : (⟨S751x2048, .f32⟩ : BufTy).Contents (Elt F) → (⟨S2048x751, .f32⟩ : BufTy).Contents (Elt F)),
    binary main_v17 main_v18 main_v19 ((fun l r => Host.dotGeneral dot_S8192x2048_S2048x751_S8192x751_1_0_0_1_n_n none l r) : (⟨S8192x2048, .f32⟩ : BufTy).Contents (Elt F) → (⟨S2048x751, .f32⟩ : BufTy).Contents (Elt F) → (⟨S8192x751, .f32⟩ : BufTy).Contents (Elt F)),
    binary main_v6 main_v6 main_v20 (mulf : (⟨S8192x2048, .f32⟩ : BufTy).Contents (Elt F) → (⟨S8192x2048, .f32⟩ : BufTy).Contents (Elt F) → (⟨S8192x2048, .f32⟩ : BufTy).Contents (Elt F)),
    binary main_v20 main_v13 main_v21 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v21 main_cst main_v22 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    nullary main_cst_3 (constant S_ .f32 0x40000000#32),
    unary main_cst_3 main_v24 (broadcastInDim S8192x751 ![] bcast_S_S8192x751 : (⟨S_, .f32⟩ : BufTy).Contents (Elt F) → (⟨S8192x751, .f32⟩ : BufTy).Contents (Elt F)),
    binary main_v24 main_v19 main_v25 (mulf : (⟨S8192x751, .f32⟩ : BufTy).Contents (Elt F) → (⟨S8192x751, .f32⟩ : BufTy).Contents (Elt F) → (⟨S8192x751, .f32⟩ : BufTy).Contents (Elt F)),
    binary main_v16 main_v25 main_v26 (subf : (⟨S8192x751, .f32⟩ : BufTy).Contents (Elt F) → (⟨S8192x751, .f32⟩ : BufTy).Contents (Elt F) → (⟨S8192x751, .f32⟩ : BufTy).Contents (Elt F)),
    unary main_v23 main_v27 (broadcastInDim S8192x751 ![0, 1] bcast_S8192x1_S8192x751_0_1 : (⟨S8192x1, .f32⟩ : BufTy).Contents (Elt F) → (⟨S8192x751, .f32⟩ : BufTy).Contents (Elt F)),
    binary main_v26 main_v27 main_v28 (addf : (⟨S8192x751, .f32⟩ : BufTy).Contents (Elt F) → (⟨S8192x751, .f32⟩ : BufTy).Contents (Elt F) → (⟨S8192x751, .f32⟩ : BufTy).Contents (Elt F)),
    unary main_arg5 main_v29 (broadcastInDim S8192x751 ![] bcast_S_S8192x751 : (⟨S_, .f32⟩ : BufTy).Contents (Elt F) → (⟨S8192x751, .f32⟩ : BufTy).Contents (Elt F)),
    binary main_v29 main_v28 main_v30 (mulf : (⟨S8192x751, .f32⟩ : BufTy).Contents (Elt F) → (⟨S8192x751, .f32⟩ : BufTy).Contents (Elt F) → (⟨S8192x751, .f32⟩ : BufTy).Contents (Elt F)),
    nullary main_cst_4 (constant S_ .f32 0x3F000000#32),
    unary main_cst_4 main_v31 (broadcastInDim S8192x751 ![] bcast_S_S8192x751 : (⟨S_, .f32⟩ : BufTy).Contents (Elt F) → (⟨S8192x751, .f32⟩ : BufTy).Contents (Elt F)),
    binary main_v31 main_v30 main_v32 (mulf : (⟨S8192x751, .f32⟩ : BufTy).Contents (Elt F) → (⟨S8192x751, .f32⟩ : BufTy).Contents (Elt F) → (⟨S8192x751, .f32⟩ : BufTy).Contents (Elt F)),
    binary main_arg1 main_v32 main_v33 (addf : (⟨S8192x751, .f32⟩ : BufTy).Contents (Elt F) → (⟨S8192x751, .f32⟩ : BufTy).Contents (Elt F) → (⟨S8192x751, .f32⟩ : BufTy).Contents (Elt F)),
    TRef.nullary (TRef.of (T := ⟨S_, .f32⟩) main_call0_cst) (constant S_ .f32 0xFF800000#32),
    TRef.binary (TRef.of (T := ⟨S8192x751, .f32⟩) main_v33) (TRef.of (T := ⟨S_, .f32⟩) main_call0_cst) (TRef.of (T := ⟨S8192, .f32⟩) main_call0_v0) (fun x v => Host.reduce FloatOps.maximumf x v reducesTo_S8192x751_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x751, .f32⟩) main_call0_v4) (broadcastInDim S8192x751 ![0, 1] bcast_S8192x1_S8192x751_0_1),
    TRef.binary (TRef.of (T := ⟨S8192x751, .f32⟩) main_v33) (TRef.of (T := ⟨S8192x751, .f32⟩) main_call0_v4) (TRef.of (T := ⟨S8192x751, .f32⟩) main_call0_v5) subf,
    TRef.unary (TRef.of (T := ⟨S8192x751, .f32⟩) main_call0_v5) (TRef.of (T := ⟨S8192x751, .f32⟩) main_call0_v6) Host.exp,
    TRef.nullary (TRef.of (T := ⟨S_, .f32⟩) main_call0_cst_1) (constant S_ .f32 0x00000000#32),
    TRef.binary (TRef.of (T := ⟨S8192x751, .f32⟩) main_call0_v6) (TRef.of (T := ⟨S_, .f32⟩) main_call0_cst_1) (TRef.of (T := ⟨S8192, .f32⟩) main_call0_v7) (fun x v => Host.reduceAdd x v reducesTo_S8192x751_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x751, .f32⟩) main_call0_v10) (broadcastInDim S8192x751 ![0, 1] bcast_S8192x1_S8192x751_0_1),
    TRef.binary (TRef.of (T := ⟨S8192x751, .f32⟩) main_call0_v5) (TRef.of (T := ⟨S8192x751, .f32⟩) main_call0_v10) (TRef.of (T := ⟨S8192x751, .f32⟩) main_v34) subf,
    unary main_arg2 main_v35 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v35) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 751#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v35) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v35) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 750#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x751, .f32⟩) main_v34) (TRef.of (T := ⟨S8192x1x1, .i32⟩) main_call1_v5) (TRef.of (T := ⟨S8192x1, .f32⟩) main_call1_v13) (fun x i => Host.gather gather_S8192x751_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v36) select,
    reshape main_v36 main_v37 rfl shapeCasts_S8192x1_S8192,
    unary main_v37 main_v38 (Host.negf : (⟨S8192, .f32⟩ : BufTy).Contents (Elt F) → (⟨S8192, .f32⟩ : BufTy).Contents (Elt F)),
    nullary main_cst_5 (constant S_ .f32 0x00000000#32),
    binary main_v38 main_cst_5 main_v39 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v39 main_cst_6 main_v40 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub ..⟩

attribute [local irreducible] Host.reduce Host.reduceAdd Host.gather

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The contents `W` after the first 0 operations: the arguments, and each value a later operation reads, at its stage. -/
abbrev Inv0 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5

/-- Operations 1 to 9. -/
abbrev s1 : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg2 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 751#32),
    unary main_c_0 main_v2 (broadcastInDim S8192 ![] bcast_S_S8192 : (⟨S_, .i32⟩ : BufTy).Contents (Elt F) → (⟨S8192, .i32⟩ : BufTy).Contents (Elt F)),
    binary main_arg2 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg2 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg3 main_v5 main_v6 ((fun x i => Host.gather gather_S751x2048_S8192x1_S8192x2048_1_0_n_n_0_1_12048 x i) : (⟨S751x2048, .f32⟩ : BufTy).Contents (Elt F) → (⟨S8192x1, .i32⟩ : BufTy).Contents (Elt F) → (⟨S8192x2048, .f32⟩ : BufTy).Contents (Elt F)) ]

/-- The contents `W` after the first 9 operations: the arguments, and each value a later operation reads, at its stage. -/
abbrev Inv1 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v6) = val_main_v6 (F := F) x2 x3

theorem st1 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv0 x1 x2 x3 x4 x5 W) : Inv1 x1 x2 x3 x4 x5 (after s1 W) := by
  obtain ⟨h_arg1, h_arg2, h_arg3, h_arg4, h_arg5⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_arg3, h_arg2]; rfl

/-- Operations 10 to 18. -/
abbrev s2 : List (HloOp τ sig (Elt F)) :=
  [ nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg2 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 751#32),
    unary main_c_2 main_v9 (broadcastInDim S8192 ![] bcast_S_S8192 : (⟨S_, .i32⟩ : BufTy).Contents (Elt F) → (⟨S8192, .i32⟩ : BufTy).Contents (Elt F)),
    binary main_arg2 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg2 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    binary main_arg4 main_v12 main_v13 ((fun x i => Host.gather gather_S751x2048_S8192x1_S8192x2048_1_0_n_n_0_1_12048 x i) : (⟨S751x2048, .f32⟩ : BufTy).Contents (Elt F) → (⟨S8192x1, .i32⟩ : BufTy).Contents (Elt F) → (⟨S8192x2048, .f32⟩ : BufTy).Contents (Elt F)) ]

/-- The contents `W` after the first 18 operations: the arguments, and each value a later operation reads, at its stage. -/
abbrev Inv2 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v6) = val_main_v6 (F := F) x2 x3
  ∧ W (Proc.devRef .tc main_v13) = val_main_v13 (F := F) x2 x4

theorem st2 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv1 x1 x2 x3 x4 x5 W) : Inv2 x1 x2 x3 x4 x5 (after s2 W) := by
  obtain ⟨h_arg1, h_arg2, h_arg3, h_arg4, h_arg5, h_v6⟩ := h
  refine ⟨?_, ?_, ?_, ?_, ?_, ?_, ?_⟩
  · after_results_simp; exact h_arg1
  · after_results_simp; exact h_arg2
  · after_results_simp; exact h_arg3
  · after_results_simp; exact h_arg4
  · after_results_simp; exact h_arg5
  · after_results_simp; exact h_v6
  · after_results_simp; rw [h_arg4, h_arg2]; rfl

/-- Operations 19 to 26. -/
abbrev s3 : List (HloOp τ sig (Elt F)) :=
  [ binary main_arg3 main_arg3 main_v14 (mulf : (⟨S751x2048, .f32⟩ : BufTy).Contents (Elt F) → (⟨S751x2048, .f32⟩ : BufTy).Contents (Elt F) → (⟨S751x2048, .f32⟩ : BufTy).Contents (Elt F)),
    unary main_v14 main_v15 ((transpose S2048x751 [1, 0] · transposes_S751x2048_S2048x751_1_0) : (⟨S751x2048, .f32⟩ : BufTy).Contents (Elt F) → (⟨S2048x751, .f32⟩ : BufTy).Contents (Elt F)),
    binary main_v13 main_v15 main_v16 ((fun l r => Host.dotGeneral dot_S8192x2048_S2048x751_S8192x751_1_0_0_1_n_n none l r) : (⟨S8192x2048, .f32⟩ : BufTy).Contents (Elt F) → (⟨S2048x751, .f32⟩ : BufTy).Contents (Elt F) → (⟨S8192x751, .f32⟩ : BufTy).Contents (Elt F)),
    binary main_v6 main_v13 main_v17 (mulf : (⟨S8192x2048, .f32⟩ : BufTy).Contents (Elt F) → (⟨S8192x2048, .f32⟩ : BufTy).Contents (Elt F) → (⟨S8192x2048, .f32⟩ : BufTy).Contents (Elt F)),
    unary main_arg3 main_v18 ((transpose S2048x751 [1, 0] · transposes_S751x2048_S2048x751_1_0) : (⟨S751x2048, .f32⟩ : BufTy).Contents (Elt F) → (⟨S2048x751, .f32⟩ : BufTy).Contents (Elt F)),
    binary main_v17 main_v18 main_v19 ((fun l r => Host.dotGeneral dot_S8192x2048_S2048x751_S8192x751_1_0_0_1_n_n none l r) : (⟨S8192x2048, .f32⟩ : BufTy).Contents (Elt F) → (⟨S2048x751, .f32⟩ : BufTy).Contents (Elt F) → (⟨S8192x751, .f32⟩ : BufTy).Contents (Elt F)),
    binary main_v6 main_v6 main_v20 (mulf : (⟨S8192x2048, .f32⟩ : BufTy).Contents (Elt F) → (⟨S8192x2048, .f32⟩ : BufTy).Contents (Elt F) → (⟨S8192x2048, .f32⟩ : BufTy).Contents (Elt F)),
    binary main_v20 main_v13 main_v21 (mulf : (⟨S8192x2048, .f32⟩ : BufTy).Contents (Elt F) → (⟨S8192x2048, .f32⟩ : BufTy).Contents (Elt F) → (⟨S8192x2048, .f32⟩ : BufTy).Contents (Elt F)) ]

/-- The contents `W` after the first 26 operations: the arguments, and each value a later operation reads, at its stage. -/
abbrev Inv3 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v16) = val_main_v16 (F := F) x2 x3 x4
  ∧ W (Proc.devRef .tc main_v19) = val_main_v19 (F := F) x2 x3 x4
  ∧ W (Proc.devRef .tc main_v21) = val_main_v21 (F := F) x2 x3 x4

theorem st3 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv2 x1 x2 x3 x4 x5 W) : Inv3 x1 x2 x3 x4 x5 (after s3 W) := by
  obtain ⟨h_arg1, h_arg2, h_arg3, h_arg4, h_arg5, h_v6, h_v13⟩ := h
  refine ⟨?_, ?_, ?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_v13, h_arg3]; rfl
  · after_results_simp; rw [h_v6, h_v13, h_arg3]; rfl
  · after_results_simp; rw [h_v6, h_v13]; rfl

/-- Operations 27 to 35. -/
abbrev s4 : List (HloOp τ sig (Elt F)) :=
  [ nullary main_cst (constant S_ .f32 0x00000000#32),
    binary main_v21 main_cst main_v22 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    nullary main_cst_3 (constant S_ .f32 0x40000000#32),
    unary main_cst_3 main_v24 (broadcastInDim S8192x751 ![] bcast_S_S8192x751 : (⟨S_, .f32⟩ : BufTy).Contents (Elt F) → (⟨S8192x751, .f32⟩ : BufTy).Contents (Elt F)),
    binary main_v24 main_v19 main_v25 (mulf : (⟨S8192x751, .f32⟩ : BufTy).Contents (Elt F) → (⟨S8192x751, .f32⟩ : BufTy).Contents (Elt F) → (⟨S8192x751, .f32⟩ : BufTy).Contents (Elt F)),
    binary main_v16 main_v25 main_v26 (subf : (⟨S8192x751, .f32⟩ : BufTy).Contents (Elt F) → (⟨S8192x751, .f32⟩ : BufTy).Contents (Elt F) → (⟨S8192x751, .f32⟩ : BufTy).Contents (Elt F)),
    unary main_v23 main_v27 (broadcastInDim S8192x751 ![0, 1] bcast_S8192x1_S8192x751_0_1 : (⟨S8192x1, .f32⟩ : BufTy).Contents (Elt F) → (⟨S8192x751, .f32⟩ : BufTy).Contents (Elt F)),
    binary main_v26 main_v27 main_v28 (addf : (⟨S8192x751, .f32⟩ : BufTy).Contents (Elt F) → (⟨S8192x751, .f32⟩ : BufTy).Contents (Elt F) → (⟨S8192x751, .f32⟩ : BufTy).Contents (Elt F)) ]

/-- The contents `W` after the first 35 operations: the arguments, and each value a later operation reads, at its stage. -/
abbrev Inv4 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v28) = val_main_v28 (F := F) x2 x3 x4

theorem st4 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv3 x1 x2 x3 x4 x5 W) : Inv4 x1 x2 x3 x4 x5 (after s4 W) := by
  obtain ⟨h_arg1, h_arg2, h_arg3, h_arg4, h_arg5, h_v16, h_v19, h_v21⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_v16, h_v19, h_v21]; rfl

/-- Operations 36 to 41. -/
abbrev s5 : List (HloOp τ sig (Elt F)) :=
  [ unary main_arg5 main_v29 (broadcastInDim S8192x751 ![] bcast_S_S8192x751 : (⟨S_, .f32⟩ : BufTy).Contents (Elt F) → (⟨S8192x751, .f32⟩ : BufTy).Contents (Elt F)),
    binary main_v29 main_v28 main_v30 (mulf : (⟨S8192x751, .f32⟩ : BufTy).Contents (Elt F) → (⟨S8192x751, .f32⟩ : BufTy).Contents (Elt F) → (⟨S8192x751, .f32⟩ : BufTy).Contents (Elt F)),
    nullary main_cst_4 (constant S_ .f32 0x3F000000#32),
    unary main_cst_4 main_v31 (broadcastInDim S8192x751 ![] bcast_S_S8192x751 : (⟨S_, .f32⟩ : BufTy).Contents (Elt F) → (⟨S8192x751, .f32⟩ : BufTy).Contents (Elt F)),
    binary main_v31 main_v30 main_v32 (mulf : (⟨S8192x751, .f32⟩ : BufTy).Contents (Elt F) → (⟨S8192x751, .f32⟩ : BufTy).Contents (Elt F) → (⟨S8192x751, .f32⟩ : BufTy).Contents (Elt F)),
    binary main_arg1 main_v32 main_v33 (addf : (⟨S8192x751, .f32⟩ : BufTy).Contents (Elt F) → (⟨S8192x751, .f32⟩ : BufTy).Contents (Elt F) → (⟨S8192x751, .f32⟩ : BufTy).Contents (Elt F)) ]

/-- The contents `W` after the first 41 operations: the arguments, and each value a later operation reads, at its stage. -/
abbrev Inv5 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v33) = val_main_v33 (F := F) x1 x2 x3 x4 x5

theorem st5 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv4 x1 x2 x3 x4 x5 W) : Inv5 x1 x2 x3 x4 x5 (after s5 W) := by
  obtain ⟨h_arg1, h_arg2, h_arg3, h_arg4, h_arg5, h_v28⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_arg1, h_arg5, h_v28]; rfl

/-- Operations 42 to 49 (a called function's operations written over the buffers themselves). -/
abbrev s6 : List (HloOp τ sig (Elt F)) :=
  [ nullary main_call0_cst ((constant S_ .f32 0xFF800000#32) : (⟨S_, .f32⟩ : BufTy).Contents (Elt F)),
    binary main_v33 main_call0_cst main_call0_v0 ((fun x v => Host.reduce FloatOps.maximumf x v reducesTo_S8192x751_S8192_d1 h_S_) : (⟨S8192x751, .f32⟩ : BufTy).Contents (Elt F) → (⟨S_, .f32⟩ : BufTy).Contents (Elt F) → (⟨S8192, .f32⟩ : BufTy).Contents (Elt F)),
    nullary main_call0_cst_0 ((constant S_ .f32 0xFF800000#32) : (⟨S_, .f32⟩ : BufTy).Contents (Elt F)),
    unary main_call0_cst_0 main_call0_v1 ((broadcastInDim S8192 ![] bcast_S_S8192) : (⟨S_, .f32⟩ : BufTy).Contents (Elt F) → (⟨S8192, .f32⟩ : BufTy).Contents (Elt F)),
    binary main_call0_v1 main_call0_v0 main_call0_v2 (maximumf : (⟨S8192, .f32⟩ : BufTy).Contents (Elt F) → (⟨S8192, .f32⟩ : BufTy).Contents (Elt F) → (⟨S8192, .f32⟩ : BufTy).Contents (Elt F)),
    unary main_call0_v2 main_call0_v3 ((broadcastInDim S8192x1 ![0] bcast_S8192_S8192x1_0) : (⟨S8192, .f32⟩ : BufTy).Contents (Elt F) → (⟨S8192x1, .f32⟩ : BufTy).Contents (Elt F)),
    unary main_call0_v3 main_call0_v4 ((broadcastInDim S8192x751 ![0, 1] bcast_S8192x1_S8192x751_0_1) : (⟨S8192x1, .f32⟩ : BufTy).Contents (Elt F) → (⟨S8192x751, .f32⟩ : BufTy).Contents (Elt F)),
    binary main_v33 main_call0_v4 main_call0_v5 (subf : (⟨S8192x751, .f32⟩ : BufTy).Contents (Elt F) → (⟨S8192x751, .f32⟩ : BufTy).Contents (Elt F) → (⟨S8192x751, .f32⟩ : BufTy).Contents (Elt F)) ]

/-- The contents `W` after the first 49 operations: the arguments, and each value a later operation reads, at its stage. -/
abbrev Inv6 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_call0_v5) = val_main_call0_v5 (F := F) x1 x2 x3 x4 x5

theorem st6 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv5 x1 x2 x3 x4 x5 W) : Inv6 x1 x2 x3 x4 x5 (after s6 W) := by
  obtain ⟨h_arg1, h_arg2, h_arg3, h_arg4, h_arg5, h_v33⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_v33]; rfl

/-- Operations 50 to 56 (a called function's operations written over the buffers themselves). -/
abbrev s7 : List (HloOp τ sig (Elt F)) :=
  [ unary main_call0_v5 main_call0_v6 (Host.exp : (⟨S8192x751, .f32⟩ : BufTy).Contents (Elt F) → (⟨S8192x751, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8192x751_S8192_d1 h_S_) : (⟨S8192x751, .f32⟩ : BufTy).Contents (Elt F) → (⟨S_, .f32⟩ : BufTy).Contents (Elt F) → (⟨S8192, .f32⟩ : BufTy).Contents (Elt F)),
    unary main_call0_v7 main_call0_v8 ((broadcastInDim S8192x1 ![0] bcast_S8192_S8192x1_0) : (⟨S8192, .f32⟩ : BufTy).Contents (Elt F) → (⟨S8192x1, .f32⟩ : BufTy).Contents (Elt F)),
    unary main_call0_v8 main_call0_v9 (Host.log : (⟨S8192x1, .f32⟩ : BufTy).Contents (Elt F) → (⟨S8192x1, .f32⟩ : BufTy).Contents (Elt F)),
    unary main_call0_v9 main_call0_v10 ((broadcastInDim S8192x751 ![0, 1] bcast_S8192x1_S8192x751_0_1) : (⟨S8192x1, .f32⟩ : BufTy).Contents (Elt F) → (⟨S8192x751, .f32⟩ : BufTy).Contents (Elt F)),
    binary main_call0_v5 main_call0_v10 main_v34 (subf : (⟨S8192x751, .f32⟩ : BufTy).Contents (Elt F) → (⟨S8192x751, .f32⟩ : BufTy).Contents (Elt F) → (⟨S8192x751, .f32⟩ : BufTy).Contents (Elt F)) ]

/-- The contents `W` after the first 56 operations: the arguments, and each value a later operation reads, at its stage. -/
abbrev Inv7 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v34) = val_main_v34 (F := F) x1 x2 x3 x4 x5

theorem st7 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv6 x1 x2 x3 x4 x5 W) : Inv7 x1 x2 x3 x4 x5 (after s7 W) := by
  obtain ⟨h_arg1, h_arg2, h_arg3, h_arg4, h_arg5, h_call0_v5⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_call0_v5]; rfl

/-- Operations 57 to 65 (a called function's operations written over the buffers themselves). -/
abbrev s8 : List (HloOp τ sig (Elt F)) :=
  [ unary main_arg2 main_v35 (broadcastInDim S8192x1 ![0] bcast_S8192_S8192x1_0 : (⟨S8192, .i32⟩ : BufTy).Contents (Elt F) → (⟨S8192x1, .i32⟩ : BufTy).Contents (Elt F)),
    nullary main_call1_c ((constantI S_ 32 0#32) : (⟨S_, .i32⟩ : BufTy).Contents (Elt F)),
    unary main_call1_c main_call1_v0 ((broadcastInDim S8192x1 ![] bcast_S_S8192x1) : (⟨S_, .i32⟩ : BufTy).Contents (Elt F) → (⟨S8192x1, .i32⟩ : BufTy).Contents (Elt F)),
    binary main_v35 main_call1_v0 main_call1_v1 ((cmpi .slt) : (⟨S8192x1, .i32⟩ : BufTy).Contents (Elt F) → (⟨S8192x1, .i32⟩ : BufTy).Contents (Elt F) → (⟨S8192x1, .i1⟩ : BufTy).Contents (Elt F)),
    nullary main_call1_c_0 ((constantI S_ 32 751#32) : (⟨S_, .i32⟩ : BufTy).Contents (Elt F)),
    unary main_call1_c_0 main_call1_v2 ((broadcastInDim S8192x1 ![] bcast_S_S8192x1) : (⟨S_, .i32⟩ : BufTy).Contents (Elt F) → (⟨S8192x1, .i32⟩ : BufTy).Contents (Elt F)),
    binary main_v35 main_call1_v2 main_call1_v3 (addi : (⟨S8192x1, .i32⟩ : BufTy).Contents (Elt F) → (⟨S8192x1, .i32⟩ : BufTy).Contents (Elt F) → (⟨S8192x1, .i32⟩ : BufTy).Contents (Elt F)),
    ternary main_call1_v1 main_call1_v3 main_v35 main_call1_v4 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    reshape main_call1_v4 main_call1_v5 rfl shapeCasts_S8192x1_S8192x1x1 ]

/-- The contents `W` after the first 65 operations: the arguments, and each value a later operation reads, at its stage. -/
abbrev Inv8 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v34) = val_main_v34 (F := F) x1 x2 x3 x4 x5
  ∧ W (Proc.devRef .tc main_call1_v5) = val_main_call1_v5 (F := F) x2

theorem st8 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv7 x1 x2 x3 x4 x5 W) : Inv8 x1 x2 x3 x4 x5 (after s8 W) := by
  obtain ⟨h_arg1, h_arg2, h_arg3, h_arg4, h_arg5, h_v34⟩ := h
  refine ⟨?_, ?_, ?_, ?_, ?_, ?_, ?_⟩
  · after_results_simp; exact h_arg1
  · after_results_simp; exact h_arg2
  · after_results_simp; exact h_arg3
  · after_results_simp; exact h_arg4
  · after_results_simp; exact h_arg5
  · after_results_simp; exact h_v34
  · after_results_simp; rw [h_arg2]; rfl

/-- Operations 66 to 76 (a called function's operations written over the buffers themselves). -/
abbrev s9 : List (HloOp τ sig (Elt F)) :=
  [ nullary main_call1_c_1 ((constantI S1 32 750#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S8192x1x1 ![] bcast_S_S8192x1x1) : (⟨S_, .i32⟩ : BufTy).Contents (Elt F) → (⟨S8192x1x1, .i32⟩ : BufTy).Contents (Elt F)),
    binary main_call1_v5 main_call1_v6 main_call1_v7 ((cmpi .sge) : (⟨S8192x1x1, .i32⟩ : BufTy).Contents (Elt F) → (⟨S8192x1x1, .i32⟩ : BufTy).Contents (Elt F) → (⟨S8192x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S8192x1x1 ![0, 1, 2] bcast_S1x1x1_S8192x1x1_0_1_2) : (⟨S1x1x1, .i32⟩ : BufTy).Contents (Elt F) → (⟨S8192x1x1, .i32⟩ : BufTy).Contents (Elt F)),
    binary main_call1_v5 main_call1_v9 main_call1_v10 ((cmpi .sle) : (⟨S8192x1x1, .i32⟩ : BufTy).Contents (Elt F) → (⟨S8192x1x1, .i32⟩ : BufTy).Contents (Elt F) → (⟨S8192x1x1, .i1⟩ : BufTy).Contents (Elt F)),
    binary main_call1_v7 main_call1_v10 main_call1_v11 (andi : (⟨S8192x1x1, .i1⟩ : BufTy).Contents (Elt F) → (⟨S8192x1x1, .i1⟩ : BufTy).Contents (Elt F) → (⟨S8192x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)),
    binary main_v34 main_call1_v5 main_call1_v13 ((fun x i => Host.gather gather_S8192x751_S8192x1x1_S8192x1_n_1_0_0_1_2_11 x i) : (⟨S8192x751, .f32⟩ : BufTy).Contents (Elt F) → (⟨S8192x1x1, .i32⟩ : BufTy).Contents (Elt F) → (⟨S8192x1, .f32⟩ : BufTy).Contents (Elt F)) ]

/-- The contents `W` after the first 76 operations: the arguments, and each value a later operation reads, at its stage. -/
abbrev Inv9 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_call1_v12) = val_main_call1_v12 (F := F) x2
  ∧ W (Proc.devRef .tc main_call1_v13) = val_main_call1_v13 (F := F) x1 x2 x3 x4 x5

theorem st9 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv8 x1 x2 x3 x4 x5 W) : Inv9 x1 x2 x3 x4 x5 (after s9 W) := by
  obtain ⟨h_arg1, h_arg2, h_arg3, h_arg4, h_arg5, h_v34, h_call1_v5⟩ := h
  refine ⟨?_, ?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_call1_v5]; rfl
  · after_results_simp; rw [h_v34, h_call1_v5]; rfl

/-- Operations 77 to 85 (a called function's operations written over the buffers themselves). -/
abbrev s10 : List (HloOp τ sig (Elt F)) :=
  [ nullary main_call1_cst ((constant S_ .f32 0x7FC00000#32) : (⟨S_, .f32⟩ : BufTy).Contents (Elt F)),
    unary main_call1_cst main_call1_v14 ((broadcastInDim S8192x1 ![] bcast_S_S8192x1) : (⟨S_, .f32⟩ : BufTy).Contents (Elt F) → (⟨S8192x1, .f32⟩ : BufTy).Contents (Elt F)),
    ternary main_call1_v12 main_call1_v13 main_call1_v14 main_v36 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    reshape main_v36 main_v37 rfl shapeCasts_S8192x1_S8192,
    unary main_v37 main_v38 (Host.negf : (⟨S8192, .f32⟩ : BufTy).Contents (Elt F) → (⟨S8192, .f32⟩ : BufTy).Contents (Elt F)),
    nullary main_cst_5 (constant S_ .f32 0x00000000#32),
    binary main_v38 main_cst_5 main_v39 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v39 main_cst_6 main_v40 (Host.divf : (⟨S_, .f32⟩ : BufTy).Contents (Elt F) → (⟨S_, .f32⟩ : BufTy).Contents (Elt F) → (⟨S_, .f32⟩ : BufTy).Contents (Elt F)) ]

/-- The contents `W` after the first 85 operations: the arguments, and each value a later operation reads, at its stage. -/
abbrev Inv10 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F)) : Prop :=
  W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_v40) = val_main_v40 (F := F) x1 x2 x3 x4 x5

theorem st10 (x1 : (⟨S8192x751, .f32⟩ : BufTy).Contents (Elt F)) (x2 : (⟨S8192, .i32⟩ : BufTy).Contents (Elt F)) (x3 x4 : (⟨S751x2048, .f32⟩ : BufTy).Contents (Elt F)) (x5 : (⟨S_, .f32⟩ : BufTy).Contents (Elt F)) (W : Valuation τ sig (Elt F))
    (h : Inv9 x1 x2 x3 x4 x5 W) : Inv10 x1 x2 x3 x4 x5 (after s10 W) := by
  obtain ⟨h_arg1, h_arg2, h_arg3, h_arg4, h_arg5, h_call1_v12, h_call1_v13⟩ := h
  refine ⟨?_, ?_, ?_, ?_, ?_, ?_⟩
  · after_results_simp; exact h_arg1
  · after_results_simp; exact h_arg2
  · after_results_simp; exact h_arg3
  · after_results_simp; exact h_arg4
  · after_results_simp; exact h_arg5
  · after_results_simp; rw [h_call1_v12, h_call1_v13]; rfl

/-- The 85 operations are the ten stretches in a row (a called function's operations, written over typed references in `ops`,
    are the same operations over the buffers themselves). -/
theorem ops_split : (ops : List (HloOp τ sig (Elt F))) = s1 ++ (s2 ++ (s3 ++ (s4 ++ (s5 ++ (s6 ++ (s7 ++ (s8 ++ (s9 ++ s10)))))))) := rfl

/-- After all 85 operations the result buffer holds the last stage of the arguments, which are unchanged. -/
theorem after_ops (V : Valuation τ sig (Elt F)) :
    Inv10 (V (Proc.devRef .tc main_arg1)) (V (Proc.devRef .tc main_arg2)) (V (Proc.devRef .tc main_arg3))
      (V (Proc.devRef .tc main_arg4)) (V (Proc.devRef .tc main_arg5)) (after ops V) := by
  rw [ops_split]
  repeat rw [after_app]
  exact (st10 _ _ _ _ _ _ (st9 _ _ _ _ _ _ (st8 _ _ _ _ _ _ (st7 _ _ _ _ _ _ (st6 _ _ _ _ _ _ (st5 _ _ _ _ _ _ (st4 _ _ _ _ _ _ (st3 _ _ _ _ _ _ (st2 _ _ _ _ _ _ (st1 _ _ _ _ _ _ ⟨rfl, rfl, rfl, rfl, rfl⟩))))))))))

/-- No operation writes the first argument. -/
theorem after_ops_arg0 (V : Valuation τ sig (Elt F)) :
    after ops V (Proc.devRef .tc main_arg0) = V (Proc.devRef .tc main_arg0) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = Cert.ReferenceIdeal.ReadP.val_main_v40 (F := F) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have hV := after_ops (F := F) (launchContents m c)
      ⟨(h c main_v40).trans hV.2.2.2.2.2,
        (h c main_arg0).trans (after_ops_arg0 _),
        (h c main_arg1).trans hV.1,
        (h c main_arg2).trans hV.2.1,
        (h c main_arg3).trans hV.2.2.1,
        (h c main_arg4).trans hV.2.2.2.1,
        (h c main_arg5).trans hV.2.2.2.2.1⟩)
    (run_seq scopedRefs_eq scopedSems_eq defs main (fun _ => ops) main_eq (fun _ => ops_sub) m ρ)

end Cert.ReferenceIdeal.RunH

end
-- ==== Proof.RefValue.lean ====
/-
  The reference's result at the extended reals: the mean over the rows of `−logp n (label n)`, where `logp` is the
  log-softmax of the augmented logits (Spec.lean) over the rows of the two class tables gathered at the labels. Stated for
  labels that are classes (`hk`): there the take's range mask is true and its index is the label itself.
-/
import proofs.«400538_j893353198279_2_alg».proof.Proof.RefRead
import proofs.«400538_j893353198279_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Isda

/-- The augmented logit, read at an index. -/
theorem aug_eq (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal))
    (n : Fin 8192) (c : Fin 751) :
    val_main_v33 (F := Ideal) y lab w cv ρ (ix2 n c)
      = aug (val_main_v6 (F := Ideal) lab w) (val_main_v13 (F := Ideal) lab cv) w y (ρ ix0) n c := by
  have e16l : ∀ k : Fin 2048, lidx_main_v16 (ix2 n c) k = ix2 n k := fun k =>
    funext fun a => Fin.ext (by match a with | ⟨0, _⟩ => rfl | ⟨1, _⟩ => rfl)
  have e16r : ∀ k : Fin 2048, ridx_main_v16 (ix2 n c) k = ix2 k c := fun k =>
    funext fun a => Fin.ext (by match a with | ⟨0, _⟩ => rfl | ⟨1, _⟩ => rfl)
  have e15 : ∀ k : Fin 2048, idx_main_v15 (ix2 k c) = ix2 c k := fun k =>
    funext fun a => Fin.ext (by match a with | ⟨0, _⟩ => rfl | ⟨1, _⟩ => rfl)
  have e19l : ∀ k : Fin 2048, lidx_main_v19 (ix2 n c) k = ix2 n k := fun k =>
    funext fun a => Fin.ext (by match a with | ⟨0, _⟩ => rfl | ⟨1, _⟩ => rfl)
  have e19r : ∀ k : Fin 2048, ridx_main_v19 (ix2 n c) k = ix2 k c := fun k =>
    funext fun a => Fin.ext (by match a with | ⟨0, _⟩ => rfl | ⟨1, _⟩ => rfl)
  have e18 : ∀ k : Fin 2048, idx_main_v18 (ix2 k c) = ix2 c k := fun k =>
    funext fun a => Fin.ext (by match a with | ⟨0, _⟩ => rfl | ⟨1, _⟩ => rfl)
  have e27 : idx_main_v27 (ix2 n c) = ix2 n 0 :=
    funext fun a => Fin.ext (by match a with | ⟨0, _⟩ => rfl | ⟨1, _⟩ => rfl)
  have e23 : idx_main_v23 (ix2 n 0) = ix1 n :=
    funext fun a => Fin.ext (by match a with | ⟨0, _⟩ => rfl)
  have e22 : ∀ k : Fin 2048, idx_main_v22 (ix1 n) k = ix2 n k := fun k =>
    funext fun a => Fin.ext (by match a with | ⟨0, _⟩ => rfl | ⟨1, _⟩ => rfl)
  unfold aug quad
  rw [val_main_v33_apply, val_main_v32_apply, val_main_v31_apply, val_main_cst_4_apply, val_main_v30_apply,
    val_main_v29_apply, val_main_v28_apply, val_main_v26_apply, val_main_v16_apply, val_main_v25_apply,
    val_main_v24_apply, val_main_cst_3_apply, val_main_v19_apply, val_main_v27_apply, e27, val_main_v23_apply, e23,
    val_main_v22_apply, val_main_cst_apply]
  simp only [e16l, e16r, e15, e22, e19l, e19r, e18, val_main_v15_apply, val_main_v14_apply, val_main_v17_apply, val_main_v18_apply,
    val_main_v21_apply, val_main_v20_apply, Ideal.addf_def, Ideal.subf_def, Ideal.mulf_def, Ideal.ofBits_def]

/-- The row maximum of the augmented logits, folded from the −∞ word. -/
theorem max_eq (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal))
    (n : Fin 8192) :
    val_main_call0_v2 (F := Ideal) y lab w cv ρ (ix1 n)
      = (Finset.univ : Finset (Fin 751)).fold max negInf (aug (val_main_v6 (F := Ideal) lab w) (val_main_v13 (F := Ideal) lab cv) w y (ρ ix0) n) := by
  rw [val_main_call0_v2_apply, val_main_call0_v1_apply, val_main_call0_cst_0_apply]
  unfold val_main_call0_v0
  rw [Host.reduce_eq_fold_single FloatOps.maximumf _ _ reducesTo_S8192x751_S8192_d1 (by decide) h_S_ (ix1 n)]
  rw [val_main_call0_cst_apply]
  have hf : (val_main_v33 (F := Ideal) y lab w cv ρ ∘ Shape.Reduces.lift (by decide : S8192x751.Reduces [1] S8192) (ix1 n))
      = aug (val_main_v6 (F := Ideal) lab w) (val_main_v13 (F := Ideal) lab cv) w y (ρ ix0) n := funext fun (k : Fin 751) =>
    (congrArg (val_main_v33 (F := Ideal) y lab w cv ρ)
      (funext fun a => Fin.ext (by match a with | ⟨0, _⟩ => rfl | ⟨1, _⟩ => rfl))).trans (aug_eq y lab w cv ρ n k)
  exact (congrArg (fun f => max negInf (Finset.fold max negInf f Finset.univ)) hf).trans (max_negInf_fold _)

/-- The log-softmax of the augmented logits, read at an index. -/
theorem logp_eq (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal))
    (n : Fin 8192) (c : Fin 751) :
    val_main_v34 (F := Ideal) y lab w cv ρ (ix2 n c)
      = logp (val_main_v6 (F := Ideal) lab w) (val_main_v13 (F := Ideal) lab cv) w y (ρ ix0) n c := by
  have e4 : ∀ c' : Fin 751, idx_main_call0_v4 (ix2 n c') = ix2 n 0 := fun c' =>
    funext fun a => Fin.ext (by match a with | ⟨0, _⟩ => rfl | ⟨1, _⟩ => rfl)
  have e3 : idx_main_call0_v3 (ix2 n 0) = ix1 n :=
    funext fun a => Fin.ext (by match a with | ⟨0, _⟩ => rfl)
  have e10 : idx_main_call0_v10 (ix2 n c) = ix2 n 0 :=
    funext fun a => Fin.ext (by match a with | ⟨0, _⟩ => rfl | ⟨1, _⟩ => rfl)
  have e8 : idx_main_call0_v8 (ix2 n 0) = ix1 n :=
    funext fun a => Fin.ext (by match a with | ⟨0, _⟩ => rfl)
  have e7 : ∀ k : Fin 751, idx_main_call0_v7 (ix1 n) k = ix2 n k := fun k =>
    funext fun a => Fin.ext (by match a with | ⟨0, _⟩ => rfl | ⟨1, _⟩ => rfl)
  have h5 : ∀ c' : Fin 751, val_main_call0_v5 (F := Ideal) y lab w cv ρ (ix2 n c')
      = aug (val_main_v6 (F := Ideal) lab w) (val_main_v13 (F := Ideal) lab cv) w y (ρ ix0) n c' - (Finset.univ : Finset (Fin 751)).fold max negInf (aug (val_main_v6 (F := Ideal) lab w) (val_main_v13 (F := Ideal) lab cv) w y (ρ ix0) n) := fun c' => by
    rw [val_main_call0_v5_apply, val_main_call0_v4_apply, e4, val_main_call0_v3_apply, e3, max_eq, aug_eq]
    rfl
  unfold logp logpOf
  rw [val_main_v34_apply, val_main_call0_v10_apply, e10, val_main_call0_v9_apply, val_main_call0_v8_apply, e8,
    val_main_call0_v7_apply, val_main_call0_cst_1_apply]
  simp only [e7, val_main_call0_v6_apply, h5, Ideal.subf_def, Ideal.hostUnary_exp_def, Ideal.hostUnary_log_def,
    Ideal.ofBits_def, Ideal.ofBits_zero_f32, zero_add]

/-- A class number, as a 32-bit word, has that number as its value. -/
theorem toNat_class (c : Fin 751) : (BitVec.ofNat 32 c.val).toNat = c.val := by
  rw [BitVec.toNat_ofNat]
  exact Nat.mod_eq_of_lt (by have := c.isLt; omega)

/-- The take's index word at row `n` is the label word: a label that is a class is not negative, so it is not wrapped. -/
theorem idx_eq (lab : (⟨S8192, .i32⟩ : BufTy).Contents (Elt Ideal))
    (k : Fin 8192 → Fin 751) (hk : ∀ n : Fin 8192, lab (ix1 n) = BitVec.ofNat 32 (k n).val) (n : Fin 8192) :
    val_main_call1_v5 (F := Ideal) lab (ix3 n 0 0) = BitVec.ofNat 32 (k n).val := by
  have e5 : idx_main_call1_v5 (ix3 n 0 0) = ix2 n 0 :=
    funext fun a => Fin.ext (by match a with | ⟨0, _⟩ => simp | ⟨1, _⟩ => rfl)
  have e35 : idx_main_v35 (ix2 n 0) = ix1 n :=
    funext fun a => Fin.ext (by match a with | ⟨0, _⟩ => rfl)
  have hc := (k n).isLt
  have hlt : ¬ IntOp.cmpi .slt (BitVec.ofNat 32 (k n).val) 0#32 = 1#1 := by
    rw [StableHlo.Predicate.slt_iff_toNat (by rw [toNat_class]; omega) (by decide)]
    exact Nat.not_lt_zero _
  rw [val_main_call1_v5_apply, e5, val_main_call1_v4_apply, val_main_call1_v1_apply, val_main_v35_apply, e35, hk,
    val_main_call1_v0_apply, val_main_call1_c_apply]
  exact if_neg hlt

/-- The take's range mask at row `n` is true: the index is a class, between 0 and 750. -/
theorem mask_eq (lab : (⟨S8192, .i32⟩ : BufTy).Contents (Elt Ideal))
    (k : Fin 8192 → Fin 751) (hk : ∀ n : Fin 8192, lab (ix1 n) = BitVec.ofNat 32 (k n).val) (n : Fin 8192) :
    val_main_call1_v12 (F := Ideal) lab (ix2 n 0) = 1#1 := by
  have hc := (k n).isLt
  have h11 : val_main_call1_v11 (F := Ideal) lab (ix3 n 0 0) = 1#1 := by
    have hge : IntOp.cmpi .sge (BitVec.ofNat 32 (k n).val) 0#32 = 1#1 :=
      (StableHlo.Predicate.sge_iff_toNat (by rw [toNat_class]; omega) (by decide)).mpr (Nat.zero_le _)
    have hle : IntOp.cmpi .sle (BitVec.ofNat 32 (k n).val) 750#32 = 1#1 :=
      (StableHlo.Predicate.sle_iff_toNat (by rw [toNat_class]; omega) (by decide)).mpr (by
        rw [toNat_class]; show (k n).val ≤ 750; omega)
    rw [val_main_call1_v11_apply, val_main_call1_v7_apply, val_main_call1_v10_apply, idx_eq lab k hk n,
      val_main_call1_v6_apply, val_main_call1_c_2_apply, val_main_call1_v9_apply, val_main_call1_v8_apply,
      val_main_call1_c_1_apply, hge, hle]
    rfl
  unfold val_main_call1_v12
  rw [Host.reduce_eq_fold_single IntOp.andi _ _ reducesTo_S8192x1x1_S8192x1_d2 (by decide) h_S_ (ix2 n 0)]
  have hf : (val_main_call1_v11 (F := Ideal) lab ∘ Shape.Reduces.lift (by decide : S8192x1x1.Reduces [2] S8192x1) (ix2 n 0))
      = fun _ : Fin 1 => 1#1 := funext fun (q : Fin 1) => by
    obtain rfl : q = 0 := Subsingleton.elim _ _
    exact (congrArg (val_main_call1_v11 (F := Ideal) lab)
      (funext fun a => Fin.ext (by match a with | ⟨0, _⟩ => rfl | ⟨1, _⟩ => rfl | ⟨2, _⟩ => rfl))).trans h11
  refine (congrArg (fun f => Finset.fold IntOp.andi (1#1) f (Finset.univ : Finset (Fin 1))) hf).trans ?_
  rw [Finset.univ_unique, Finset.fold_singleton]
  rfl

/-- The take reads row `n` of its operand at the class the label names: the row is the batch coordinate, the class is the
    index word, which the clamp to [0, 750] leaves as it is. -/
theorem take_idx (lab : (⟨S8192, .i32⟩ : BufTy).Contents (Elt Ideal))
    (k : Fin 8192 → Fin 751) (hk : ∀ n : Fin 8192, lab (ix1 n) = BitVec.ofNat 32 (k n).val) (n : Fin 8192) :
    gather_S8192x751_S8192x1x1_S8192x1_n_1_0_0_1_2_11.operandIdx (ix2 n 0) (val_main_call1_v5 (F := Ideal) lab) = ix2 n (k n) := by
  have hc := (k n).isLt
  funext a
  refine Fin.ext ?_
  match a with
  | ⟨0, _⟩ =>
    show gather_S8192x751_S8192x1x1_S8192x1_n_1_0_0_1_2_11.start (ix2 n 0) (val_main_call1_v5 (F := Ideal) lab) 0 + gather_S8192x751_S8192x1x1_S8192x1_n_1_0_0_1_2_11.batchCoord (ix2 n 0) 0 + gather_S8192x751_S8192x1x1_S8192x1_n_1_0_0_1_2_11.offCoord (ix2 n 0) 0 = n.val
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show gather_S8192x751_S8192x1x1_S8192x1_n_1_0_0_1_2_11.start (ix2 n 0) (val_main_call1_v5 (F := Ideal) lab) 1 + gather_S8192x751_S8192x1x1_S8192x1_n_1_0_0_1_2_11.batchCoord (ix2 n 0) 1 + gather_S8192x751_S8192x1x1_S8192x1_n_1_0_0_1_2_11.offCoord (ix2 n 0) 1 = (k n).val
    rw [GatherDims.batchCoord_eq_zero _ _ _ (by decide), GatherDims.offCoord_eq_zero _ _ _ (by decide)]
    unfold GatherDims.start
    rw [dif_pos (by decide)]
    have hsi : ∀ h, gather_S8192x751_S8192x1x1_S8192x1_n_1_0_0_1_2_11.siIdx (ix2 n 0) ⟨List.idxOf 1 gather_S8192x751_S8192x1x1_S8192x1_n_1_0_0_1_2_11.startIndexMap, h⟩ = ix3 n 0 0 := fun h =>
      funext fun a => Fin.ext (by match a with | ⟨0, _⟩ => rfl | ⟨1, _⟩ => rfl | ⟨2, _⟩ => rfl)
    rw [hsi, idx_eq lab k hk n, StableHlo.Predicate.toInt_ofNat_small _ (by omega), Int.toNat_natCast]
    show min (k n).val (751 - 1) + 0 + 0 = (k n).val
    omega

/-- The take's result at row `n`: the log-softmax at the class the label names. -/
theorem take_eq (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal))
    (k : Fin 8192 → Fin 751) (hk : ∀ n : Fin 8192, lab (ix1 n) = BitVec.ofNat 32 (k n).val) (n : Fin 8192) :
    val_main_v36 (F := Ideal) y lab w cv ρ (ix2 n 0) = logp (val_main_v6 (F := Ideal) lab w) (val_main_v13 (F := Ideal) lab cv) w y (ρ ix0) n (k n) := by
  rw [val_main_v36_apply, mask_eq lab k hk n, select_one]
  unfold val_main_call1_v13 Host.gather
  rw [take_idx lab k hk n, logp_eq]

/-- The reference's result is the mean of `−logp n (k n)` over the rows, `k n` the class the label word of row `n` names. -/
theorem result_eq (y : (⟨S8192x751, .f32⟩ : BufTy).Contents (Elt Ideal)) (lab : (⟨S8192, .i32⟩ : BufTy).Contents (Elt Ideal))
    (w cv : (⟨S751x2048, .f32⟩ : BufTy).Contents (Elt Ideal)) (ρ : (⟨S_, .f32⟩ : BufTy).Contents (Elt Ideal))
    (k : Fin 8192 → Fin 751) (hk : ∀ n : Fin 8192, lab (ix1 n) = BitVec.ofNat 32 (k n).val) :
    val_main_v40 (F := Ideal) y lab w cv ρ
      = fun _ => lossR (fun j => -(logp (val_main_v6 (F := Ideal) lab w) (val_main_v13 (F := Ideal) lab cv) w y (ρ ix0) (j 0) (k (j 0)))) := by
  funext i
  have e37 : ∀ j : S8192.Idx, idx_main_v37 j = @ix2 8192 1 (j 0) 0 := fun j =>
    funext fun a => Fin.ext (by match a with | ⟨0, _⟩ => exact Nat.div_one _ | ⟨1, _⟩ => rfl)
  have h38 : ∀ j : S8192.Idx, val_main_v38 (F := Ideal) y lab w cv ρ j
      = -(logp (val_main_v6 (F := Ideal) lab w) (val_main_v13 (F := Ideal) lab cv) w y (ρ ix0) (j 0) (k (j 0))) := fun j => by
    rw [val_main_v38_apply, val_main_v37_apply, e37, take_eq y lab w cv ρ k hk (j 0)]
    rfl
  rw [val_main_v40_apply, val_main_v39_apply, val_main_cst_5_apply, val_main_cst_6_apply]
  simp only [h38, Ideal.hostDivf_def, Ideal.ofBits_def]
  rfl

end Cert.ReferenceIdeal.RefValue

end
-- ==== Proof.lean ====
/-
  The certificate's claims, assembled.

  Both programs compute the mean, over 8192 batch rows, of the negative log-likelihood of the row's label under the
  log-softmax of the ISDA-augmented logits `y + ½·ρ·(Σₐ cv_l·w_c² − 2·Σₐ w_l·cv_l·w_c + Σₐ w_l²·cv_l)` (Spec.lean). The kernel
  program gathers the label rows and forms the third term on the host, runs the two matrix products, the log-softmax and a
  one-hot masked sum per 512-row block inside the region, and takes the mean of the resulting column on the host
  (KernelRun.lean); the reference does everything on the host and reads the label's entry by a take along the class axis
  (RefRunH.lean, RefValue.lean). Under the precondition every label is a class (Pre.lean), where the masked sum IS the
  label's entry (Spec.lean `nll_onehot`), so the two means agree row by row (`lossK_eq_lossR`). No finiteness is used:
  the two sides are the same expression of the extended reals up to `x · 0 = 0`, `x · 1 = x`, `0 − x = −x` and the
  re-indexing of a column as a vector.
-/
import proofs.«400538_j893353198279_2_alg».proof.Defs
import proofs.«400538_j893353198279_2_alg».proof.Proof.Gen.Kernel
import proofs.«400538_j893353198279_2_alg».proof.Proof.Gen.Kernel.Skeleton
import proofs.«400538_j893353198279_2_alg».proof.Proof.Gen.Kernel.Launch
import proofs.«400538_j893353198279_2_alg».proof.Proof.Gen.Kernel.Points
import proofs.«400538_j893353198279_2_alg».proof.Proof.Gen.Kernel.Frame
import proofs.«400538_j893353198279_2_alg».proof.Proof.Gen.KernelIdeal
import proofs.«400538_j893353198279_2_alg».proof.Proof.Gen.KernelIdeal.Skeleton
import proofs.«400538_j893353198279_2_alg».proof.Proof.Gen.KernelIdeal.Launch
import proofs.«400538_j893353198279_2_alg».proof.Proof.Gen.KernelIdeal.Points
import proofs.«400538_j893353198279_2_alg».proof.Proof.Gen.KernelIdeal.Frame
import proofs.«400538_j893353198279_2_alg».proof.Proof.Gen.ReferenceIdeal
import proofs.«400538_j893353198279_2_alg».proof.Proof.Gen.Pre_finite_inputs
import proofs.«400538_j893353198279_2_alg».proof.Proof.Spec
import proofs.«400538_j893353198279_2_alg».proof.Proof.Pre
import proofs.«400538_j893353198279_2_alg».proof.Proof.KernelPrefix
import proofs.«400538_j893353198279_2_alg».proof.Proof.KernelRun
import proofs.«400538_j893353198279_2_alg».proof.Proof.RefRunH
import proofs.«400538_j893353198279_2_alg».proof.Proof.RefValue
import Idealize.ShloMosaic.Adequacy
import Idealize.ShloMosaic.Init

noncomputable section

namespace Cert.Proof

open Idealize.ShloMosaic Idealize.ShloMosaic.ValueIdx Idealize.SL.Sem Cert.Isda

/-- The rows the kernel program's host gathers are the rows the reference gathers: one gather of one table at one index
    column (the two programs print the same operations). -/
theorem rows_w (x : Cert.Isda.ST.Idx → EReal) (lab : Cert.Isda.SL.Idx → BitVec 32) :
    Cert.KernelIdeal.Prefix.rowsOf x lab = Cert.ReferenceIdeal.ReadP.val_main_v6 (F := Ideal) lab x := rfl
theorem rows_cv (x : Cert.Isda.ST.Idx → EReal) (lab : Cert.Isda.SL.Idx → BitVec 32) :
    Cert.KernelIdeal.Prefix.rowsOf x lab = Cert.ReferenceIdeal.ReadP.val_main_v13 (F := Ideal) lab x := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- Both programs end at the kernel's value of the loss: the reference's mean of `−logp n (label n)` is the kernel's
    mean of `0 − Σ_c logp n c · [label n = c]`, row by row, since every label is a class. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hcls : ∀ (c : Dev Cert.KernelIdeal.nD) (n : Fin 8192), ∃ k : Fin 751,
      m ((c.tc : Thread Cert.KernelIdeal.nD Cert.KernelIdeal.τ).loc Cert.KernelIdeal.main_arg2) (ix1 n) = BitVec.ofNat 32 k.val :=
    fun c n => Cert.Pre_finite_inputs.Decode.label_is_class _ _ _ _ _ _ (hpre c) n
  choose k hk using hcls
  refine ⟨_, Cert.KernelIdeal.RunV.run m ρ, ?_⟩
  refine (θ_run Cert.ReferenceIdeal.defs _ _).mono (fun _ h c => ⟨(h c).1.trans ?_, (h c).2⟩)
    (Cert.ReferenceIdeal.RunH.run (F := Ideal) m' ρ')
  obtain ⟨_, e1, e2, e3, e4, e5⟩ := hagree c
  rw [e1, e2, e3, e4, e5, Cert.ReferenceIdeal.RefValue.result_eq _ _ _ _ _ (k c) (hk c)]
  funext _
  unfold Cert.KernelIdeal.RunV.lossOf
  refine (lossK_eq_lossR _ _ fun n => ?_).symm
  rw [nll_onehot _ _ (k c n) (hk c n), rows_w, rows_cv]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
